-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S256x256 : Shape := ⟨2, ![256, 256]⟩
abbrev S256 : Shape := ⟨1, ![256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S32x1024x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S32x1024x256 : Shape := ⟨3, ![32, 1024, 256]⟩
abbrev S256x256 : Shape := ⟨2, ![256, 256]⟩
abbrev S256 : Shape := ⟨1, ![256]⟩
abbrev S256x768 : Shape := ⟨2, ![256, 768]⟩
abbrev S768 : Shape := ⟨1, ![768]⟩
abbrev S1x768 : Shape := ⟨2, ![1, 768]⟩
abbrev S2x1024x256 : Shape := ⟨3, ![2, 1024, 256]⟩
abbrev S2048x256 : Shape := ⟨2, ![2048, 256]⟩
abbrev S2048x768 : Shape := ⟨2, ![2048, 768]⟩
abbrev S2x256x256 : Shape := ⟨3, ![2, 256, 256]⟩
abbrev S2x256x1024 : Shape := ⟨3, ![2, 256, 1024]⟩
abbrev S2x256 : Shape := ⟨2, ![2, 256]⟩
abbrev S2x256x1 : Shape := ⟨3, ![2, 256, 1]⟩

abbrev nBuf : Space → Nat
  | .hbm => 14
  | .vmem => 7
  | .smem => 0
  | _ => 0

abbrev bufTy : (tb : Table) → Fin (tcTables nBuf tb) → BufTy
  | .hbm, ⟨0, _⟩ => ⟨S32x1024x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S256x768, .f32⟩
  | .hbm, ⟨11, _⟩ => ⟨S768, .f32⟩
  | .hbm, ⟨12, _⟩ => ⟨S1x768, .f32⟩
  | .hbm, ⟨13, _⟩ => ⟨S32x1024x256, .f32⟩
  | .local _ .vmem, ⟨0, _⟩ => ⟨S2x1024x256, .f32⟩
  | .local _ .vmem, ⟨1, _⟩ => ⟨S2x1024x256, .f32⟩
  | .local _ .vmem, ⟨2, _⟩ => ⟨S256x768, .f32⟩
  | .local _ .vmem, ⟨3, _⟩ => ⟨S1x768, .f32⟩
  | .local _ .vmem, ⟨4, _⟩ => ⟨S2x1024x256, .f32⟩
  | .local _ .vmem, ⟨5, _⟩ => ⟨S2x1024x256, .f32⟩
  | .local _ .vmem, ⟨6, _⟩ => ⟨S2x1024x256, .bf16⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def k0_mult1 : BitVec 32 :=
  let c0_i32 : BitVec 32 := 0#32
  let c256_i32 : BitVec 32 := 256#32
  let v23 : BitVec 32 := Scalar.muli c0_i32 c256_i32
  v23
def k0_off1 (c0_i32 : BitVec 32) : Fin 3 → Nat :=
  let c0_9 : Index := 0#32
  let c256_i32 : BitVec 32 := 256#32
  let v23 : BitVec 32 := Scalar.muli c0_i32 c256_i32
  let v24 : BitVec 32 := v23
  let v25 : Index := Scalar.indexCast v24
  let c0_10 : Index := 0#32
  ![0, v25.toNat, 0]
def k0_mult2 : BitVec 32 :=
  let c1_i32 : BitVec 32 := 1#32
  let c256_i32_17 : BitVec 32 := 256#32
  let v41 : BitVec 32 := Scalar.muli c1_i32 c256_i32_17
  v41
def k0_mult3 : BitVec 32 :=
  let c2_i32 : BitVec 32 := 2#32
  let c256_i32_26 : BitVec 32 := 256#32
  let v59 : BitVec 32 := Scalar.muli c2_i32 c256_i32_26
  v59
def k0_mult4 : BitVec 32 :=
  let c3_i32 : BitVec 32 := 3#32
  let c256_i32_35 : BitVec 32 := 256#32
  let v77 : BitVec 32 := Scalar.muli c3_i32 c256_i32_35
  v77
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  concatenates_S256x256_S256x256_S256x256_S256x768_d1 : Shape.Concatenates [S256x256, S256x256, S256x256] S256x768 1
  concatenates_S256_S256_S256_S768_d0 : Shape.Concatenates [S256, S256, S256] S768 0
  shapeCasts_S768_S1x768 : S768.ShapeCasts S1x768
  inb_S2x1024x256_S2x1024x256_0_0_0 : ∀ a, (![0, 0, 0] : Fin 3 → Nat) a + S2x1024x256.size a ≤ S2x1024x256.size a
  h_S2x1024x256 : 0 < S2x1024x256.numel
  shapeCasts_S2x1024x256_S2048x256 : S2x1024x256.ShapeCasts S2048x256
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2048x768 : S1x768.Broadcasts S2048x768
  slices_S2048x768_o0_0_S2048x256 : S2048x768.Slices ![0, 0] S2048x256
  shapeCasts_S2048x256_S2x1024x256 : S2048x256.ShapeCasts S2x1024x256
  slices_S2048x768_o0_256_S2048x256 : S2048x768.Slices ![0, 256] S2048x256
  slices_S2048x768_o0_512_S2048x256 : S2048x768.Slices ![0, 512] S2048x256
  shapeCasts_S2x1024x256_S2x1024x256 : S2x1024x256.ShapeCasts S2x1024x256
  packedbf16_S2x1024x256_S2x1024x256_0_0_0 : (Rect.unit (s := S2x1024x256) ![0, 0, 0] S2x1024x256.size inb_S2x1024x256_S2x1024x256_0_0_0).PackedRows (EltTy.packing .bf16)
  h_S2x256x256 : 0 < S2x256x256.numel
  reduces_S2x256x1024_S2x256 : S2x256x1024.Reduces [2] S2x256
  shapeCasts_S2x256_S2x256x1 : S2x256.ShapeCasts S2x256x1
  broadcasts_S2x256x1_S2x256x1024 : S2x256x1.Broadcasts S2x256x1024
  broadcasts_S2x256x1_S2x256x256 : S2x256x1.Broadcasts S2x256x256
  dot_S2048x256_S256x768_S2048x768_1_0_0_1_n_n_wf : DotDims.WF S2048x256 S256x768 S2048x768 [1] [0] [0] [1] [] []
  dot_S2x256x256_S2x1024x256_S2x256x1024_2_2_1_1_0_0_wf : DotDims.WF S2x256x256 S2x1024x256 S2x256x1024 [2] [2] [1] [1] [0] [0]
  dot_S2x256x1024_S2x1024x256_S2x256x256_2_1_1_2_0_0_wf : DotDims.WF S2x256x1024 S2x1024x256 S2x256x256 [2] [1] [1] [2] [0] [0]
  hrank0 : 0 < grid0.rank
  k0_mult1_dvd : 256 ∣ k0_mult1.toNat
  k0_off1_inb : ∀ (r : Fin 4), ∀ a, (k0_off1 (BitVec.ofNat 32 r.val)) a + S2x256x256.size a ≤ S2x1024x256.size a
  k0_mult2_dvd : 256 ∣ k0_mult2.toNat
  k0_mult3_dvd : 256 ∣ k0_mult3.toNat
  k0_mult4_dvd : 256 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S32x1024x256.size a
  hwx0_0 : ∀ i : grid0.Coords, EltTy.bits .f32 = 32 ∨ (Rect.block (s := S32x1024x256) S2x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x256.size a ≤ S32x1024x256.size a
  hwx0_3 : ∀ i : grid0.Coords, EltTy.bits .f32 = 32 ∨ (Rect.block (s := S32x1024x256) S2x1024x256.size (cc0_transform_3 i) (hinb0_3 i)).WholeWords (EltTy.packing .f32)

variable [Facts₀]

def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def dot_S2x256x256_S2x1024x256_S2x256x1024_2_2_1_1_0_0 : DotDims S2x256x256 S2x1024x256 S2x256x1024 where
  lhsContracting := [2]
  rhsContracting := [2]
  lhsNonContracting := [1]
  rhsNonContracting := [1]
  lhsBatch := [0]
  rhsBatch := [0]
  wf := dot_S2x256x256_S2x1024x256_S2x256x1024_2_2_1_1_0_0_wf
def dot_S2x256x1024_S2x1024x256_S2x256x256_2_1_1_2_0_0 : DotDims S2x256x1024 S2x1024x256 S2x256x256 where
  lhsContracting := [2]
  rhsContracting := [1]
  lhsNonContracting := [1]
  rhsNonContracting := [2]
  lhsBatch := [0]
  rhsBatch := [0]
  wf := dot_S2x256x1024_S2x1024x256_S2x256x256_2_1_1_2_0_0_wf

abbrev win0_0 : Pipeline.Window sig grid0 :=
  Pipeline.Window.ofSpec (Memref.whole main_arg0) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S256x256 : Shape := ⟨2, ![256, 256]⟩
abbrev S256 : Shape := ⟨1, ![256]⟩
abbrev S1x1x256 : Shape := ⟨3, ![1, 1, 256]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩

abbrev nBuf : Space → Nat
  | .hbm => 35
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S32x1024x256, .f32⟩
  | .hbm, ⟨8, _⟩ => ⟨S1x1x256, .f32⟩
  | .hbm, ⟨9, _⟩ => ⟨S32x1024x256, .f32⟩
  | .hbm, ⟨10, _⟩ => ⟨S32x1024x256, .f32⟩
  | .hbm, ⟨11, _⟩ => ⟨S32x1024x256, .f32⟩
  | .hbm, ⟨12, _⟩ => ⟨S1x1x256, .f32⟩
  | .hbm, ⟨13, _⟩ => ⟨S32x1024x256, .f32⟩
  | .hbm, ⟨14, _⟩ => ⟨S32x1024x256, .f32⟩
  | .hbm, ⟨15, _⟩ => ⟨S32x1024x256, .f32⟩
  | .hbm, ⟨16, _⟩ => ⟨S1x1x256, .f32⟩
  | .hbm, ⟨17, _⟩ => ⟨S32x1024x256, .f32⟩
  | .hbm, ⟨18, _⟩ => ⟨S32x1024x256, .f32⟩
  | .hbm, ⟨19, _⟩ => ⟨S32x1024x1024, .f32⟩
  | .hbm, ⟨20, _⟩ => ⟨S_, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024x1, .f32⟩
  | .hbm, ⟨26, _⟩ => ⟨S32x1024x1024, .f32⟩
  | .hbm, ⟨27, _⟩ => ⟨S32x1024x1024, .f32⟩
  | .hbm, ⟨28, _⟩ => ⟨S32x1024x1024, .f32⟩
  | .hbm, ⟨29, _⟩ => ⟨S_, .f32⟩
  | .hbm, ⟨30, _⟩ => ⟨S32x1024, .f32⟩
  | .hbm, ⟨31, _⟩ => ⟨S32x1024x1, .f32⟩
  | .hbm, ⟨32, _⟩ => ⟨S32x1024x1024, .f32⟩
  | .hbm, ⟨33, _⟩ => ⟨S32x1024x1024, .f32⟩
  | .hbm, ⟨34, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S32x1024x256_0_1_2 : S1x1x256.BroadcastsInDim S32x1024x256 (![0, 1, 2] : Fin 3 → Fin S32x1024x256.rank)
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  dot_S32x1024x256_S256x256_S32x1024x256_2_1_01_0_n_n_wf : DotDims.WF S32x1024x256 S256x256 S32x1024x256 [2] [1] [0, 1] [0] [] []
  dot_S32x1024x256_S32x1024x256_S32x1024x1024_2_2_1_1_0_0_wf : DotDims.WF S32x1024x256 S32x1024x256 S32x1024x1024 [2] [2] [1] [1] [0] [0]
  dot_S32x1024x1024_S32x1024x256_S32x1024x256_2_1_1_2_0_0_wf : DotDims.WF S32x1024x1024 S32x1024x256 S32x1024x256 [2] [1] [1] [2] [0] [0]

variable [Facts₀]

def dot_S32x1024x256_S256x256_S32x1024x256_2_1_01_0_n_n : DotDims S32x1024x256 S256x256 S32x1024x256 where
  lhsContracting := [2]
  rhsContracting := [1]
  lhsNonContracting := [0, 1]
  rhsNonContracting := [0]
  lhsBatch := []
  rhsBatch := []
  wf := dot_S32x1024x256_S256x256_S32x1024x256_2_1_01_0_n_n_wf
def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf
def dot_S32x1024x1024_S32x1024x256_S32x1024x256_2_1_1_2_0_0 : DotDims S32x1024x1024 S32x1024x256 S32x1024x256 where
  lhsContracting := [2]
  rhsContracting := [1]
  lhsNonContracting := [1]
  rhsNonContracting := [2]
  lhsBatch := [0]
  rhsBatch := [0]
  wf := dot_S32x1024x1024_S32x1024x256_S32x1024x256_2_1_1_2_0_0_wf

class Facts : Prop extends Facts₀ where

variable [Facts]
-- ==== Proof.KernelEntry.lean ====
/-
  What the attention region finds when it is entered, and what the frame claim needs of its run.

  Before the region @main transposes the three weight matrices, lays them side by side into one 256 x 768 matrix,
  lays the three bias vectors end to end into one vector of 768 and views it as one row. None of these lines writes an
  argument array, so each argument is found as launched; the two laid-out operands are found at the lines' results.
  A window's block at a grid point is its array's contents read through the block's rectangle; an input window's
  staging buffer holds that block at every point, whether the pipeline fetched it there or the block index has not moved.
-/
import proofs.«403941_j26371099197827_3_alg».proof.Proof.Gen.Kernel.Launch
import proofs.«403941_j26371099197827_3_alg».proof.Proof.Gen.Kernel.Skeleton
import proofs.«403941_j26371099197827_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host lines. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference none of the six lines writes is found as launched. -/
theorem V_of_not_written (c : Dev nD) (r : Ref sig .tc)
    (h : r ≠ main_v0 ∧ r ≠ main_v1 ∧ r ≠ main_v2 ∧ r ≠ main_v3 ∧ r ≠ main_v4 ∧ r ≠ main_v5) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)

/-! ## The windows' blocks -/

/-- Window `w`'s block at point `t`: its array as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The trajectory window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole laid-out matrix at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias window's staging buffer holds the whole laid-out row at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run ending with every staged array at the
    library's final contents and every other unscoped buffer as the region found it leaves the seven argument
    arrays as launched: the trajectory is a staged input, the other six are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The staging memrefs at a point, and the scratch -/

abbrev ms0_0 (t : Fin cfg0.N) : Memref sig .tc .vmem S2x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024x256 .f32 := win0_3.stage (cfg0.slots t 3)
abbrev hs0_3 (t : Fin cfg0.N) : (ms0_3 t).IsWhole := hstage0_3 ((cfg0.slots t 3).cast nbuf0_3)
/-- The query scratch: a whole scoped buffer of the kernel's own. -/
abbrev scM0_0 : Memref sig .tc .vmem S2x1024x256 .bf16 := Memref.whole cc0_scratch0
/-- One staging buffer of the output window, through which its contents are stated. -/
abbrev VO0_3 : View sig .tc .vmem S2x1024x256 .f32 := (Memref.whole cc0_stg3_0 : Memref sig .tc .vmem S2x1024x256 .f32).view

/-- Between points the region keeps only this: the scratch at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Region

end
-- ==== Proof.KernelBody.lean ====
/-
  The attention kernel's body at one grid point, run once on whole staging buffers.

  The body reads the trajectory block, the laid-out weights and biases, projects them to queries, keys and values,
  parks the queries in its scratch, and then, for each of the four query tiles of 256 rows, reads the tile back from the
  scratch and stores the tile's normalised attention output into rows [256 r, 256 r + 256) of the output block. It also
  reads the scratch and each output tile once before writing them; those values are never used. So, whatever the scratch
  and the output buffer held, the body ends with the three inputs as they were, the scratch at some contents, and the
  output buffer with four pieces written, one per tile: the pieces are what the run finds.
-/
import proofs.«403941_j26371099197827_3_alg».proof.Proof.KernelEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's four stores leave in the output's staging buffer (last store first), with the proof that from
    whole staging buffers — the inputs' at contents `x0`, `x1`, `x2`, the output's and the scratch at anything — the body
    runs to a state holding the inputs' as they were, the output's with the pieces written, and the scratch at some contents. -/
noncomputable def kernelRun0 (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec F S2x1024x256 .f32) (x1 : Vec F S256x768 .f32) (x2 : Vec F S1x768 .f32) :
    { L3 : List (View.Piece (Elt F) S2x1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc0__attn_kernel i arg1 harg1 arg2 harg2 arg3 harg3 arg4 harg4 arg5 harg5) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexists _; isplitr
    swap; · iexact H4
    ipureintro; rfl

end Cert.Kernel.Region

end
-- ==== Proof.KernelRun.lean ====
/-
  The attention region's run, and the frame claim.

  The four pieces the body stores tile the output block (rows [0, 256), [256, 512), [512, 768), [768, 1024) of both
  batches), so what the output's staging buffer holds after the body does not depend on what it held before: it is the
  pieces read back. With that as the output window's contents after each point, the three inputs' blocks as theirs, and
  the scratch and the generator register kept at anything between points, the body meets the pipeline's obligation at
  every grid point, the region runs to the end, and the argument arrays end as launched.
-/
import proofs.«403941_j26371099197827_3_alg».proof.Proof.KernelBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's pieces tile the output block, so they cover it. -/
theorem cover0_3 (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec F S2x1024x256 .f32) (x1 : Vec F S256x768 .f32) (x2 : Vec F S1x768 .f32) (y : S2x1024x256.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S2x256x256.size (by sl_kernel_rfl) y

/-- What the body leaves in the output's staging buffer: its pieces read back. -/
def out0_3 (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec F S2x1024x256 .f32) (x1 : Vec F S256x768 .f32) (x2 : Vec F S1x768 .f32) : Vec F S2x1024x256 .f32 :=
  VO0_3.read (Elt F) (VO0_3.writes (Elt F) VO0_3.junk (kernelRun0 c i arg1 harg1 arg2 harg2 arg3 harg3 arg4 harg4 arg5 harg5 x0 x1 x2).1)

/-! ## The pipeline's proof data -/

/-- The arrays as the region finds them; after the body at point `t` each input's buffer at its block and the output's
    at the body's pieces over the input blocks; between points the scratch and the generator register at anything;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 2000000 in
/-- The body at any point: the inputs' buffers hold their blocks, the output's buffer and the scratch hold anything, so the
    body's run applies; the output's buffer ends at the pieces read back, because they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold out0_3
  iintro ⟨⟨HS, Hg⟩, Ho, ⟨%d0, H0⟩, ⟨%d1, H1⟩, ⟨%d2, H2⟩, ⟨%d3, H3⟩⟩
  iapply ((kernelRun0 c (grid0.coords t) _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS Hg]
  · isplitl [HS]; · iexact HS
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each staged array at the contents the
    proof data gives it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Region

end
-- ==== Proof.KernelIdealEntry.lean ====
/-
  What the attention region finds when it is entered, and what the frame claim needs of its run.

  Before the region @main transposes the three weight matrices, lays them side by side into one 256 x 768 matrix,
  lays the three bias vectors end to end into one vector of 768 and views it as one row. None of these lines writes an
  argument array, so each argument is found as launched; the two laid-out operands are found at the lines' results.
  A window's block at a grid point is its array's contents read through the block's rectangle; an input window's
  staging buffer holds that block at every point, whether the pipeline fetched it there or the block index has not moved.
-/
import proofs.«403941_j26371099197827_3_alg».proof.Proof.Gen.KernelIdeal.Launch
import proofs.«403941_j26371099197827_3_alg».proof.Proof.Gen.KernelIdeal.Skeleton
import proofs.«403941_j26371099197827_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the six host lines. -/
abbrev V (c : Dev nD) (b : Ref sig .tc) : Buf (Elt F) ((c : Thread nD τ).loc b) := StableHlo.after hostOps0 (fun b => m (c, b)) b

/-- The host lines allocate nothing. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A reference none of the six lines writes is found as launched. -/
theorem V_of_not_written (c : Dev nD) (r : Ref sig .tc)
    (h : r ≠ main_v0 ∧ r ≠ main_v1 ∧ r ≠ main_v2 ∧ r ≠ main_v3 ∧ r ≠ main_v4 ∧ r ≠ main_v5) :
    V m c r = m ((c : Thread nD τ).loc r) :=
  StableHlo.after_of_forall_not_mem (b := Proc.devRef .tc r) _ _ (List.forall_iff_forall_mem.mp (by
    simp only [hostOps0, List.Forall, StableHlo.unary_writes, StableHlo.nary_writes, StableHlo.reshape_writes, Finset.mem_singleton]
    exact ⟨StableHlo.devRef_ne_of_ne h.1, StableHlo.devRef_ne_of_ne h.2.1, StableHlo.devRef_ne_of_ne h.2.2.1,
      StableHlo.devRef_ne_of_ne h.2.2.2.1, StableHlo.devRef_ne_of_ne h.2.2.2.2.1, StableHlo.devRef_ne_of_ne h.2.2.2.2.2⟩))

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)

/-! ## The windows' blocks -/

/-- Window `w`'s block at point `t`: its array as the region finds it, read through the block's rectangle. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The trajectory window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The weight window's staging buffer holds the whole laid-out matrix at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The bias window's staging buffer holds the whole laid-out row at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data whose arrays are the region-entry contents, a run ending with every staged array at the
    library's final contents and every other unscoped buffer as the region found it leaves the seven argument
    arrays as launched: the trajectory is a staged input, the other six are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) h

/-! ## The staging memrefs at a point, and the scratch -/

abbrev ms0_0 (t : Fin cfg0.N) : Memref sig .tc .vmem S2x1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x768 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1024x256 .f32 := win0_3.stage (cfg0.slots t 3)
abbrev hs0_3 (t : Fin cfg0.N) : (ms0_3 t).IsWhole := hstage0_3 ((cfg0.slots t 3).cast nbuf0_3)
/-- The query scratch: a whole scoped buffer of the kernel's own. -/
abbrev scM0_0 : Memref sig .tc .vmem S2x1024x256 .bf16 := Memref.whole cc0_scratch0
/-- One staging buffer of the output window, through which its contents are stated. -/
abbrev VO0_3 : View sig .tc .vmem S2x1024x256 .f32 := (Memref.whole cc0_stg3_0 : Memref sig .tc .vmem S2x1024x256 .f32).view

/-- Between points the region keeps only this: the scratch at some contents and the generator register at some state. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Region

end
-- ==== Proof.KernelIdealBody.lean ====
/-
  The attention kernel's body at one grid point, run once on whole staging buffers.

  The body reads the trajectory block, the laid-out weights and biases, projects them to queries, keys and values,
  parks the queries in its scratch, and then, for each of the four query tiles of 256 rows, reads the tile back from the
  scratch and stores the tile's normalised attention output into rows [256 r, 256 r + 256) of the output block. It also
  reads the scratch and each output tile once before writing them; those values are never used. So, whatever the scratch
  and the output buffer held, the body ends with the three inputs as they were, the scratch at some contents, and the
  output buffer with four pieces written, one per tile: the pieces are what the run finds.
-/
import proofs.«403941_j26371099197827_3_alg».proof.Proof.KernelIdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The pieces the body's four stores leave in the output's staging buffer (last store first), with the proof that from
    whole staging buffers — the inputs' at contents `x0`, `x1`, `x2`, the output's and the scratch at anything — the body
    runs to a state holding the inputs' as they were, the output's with the pieces written, and the scratch at some contents. -/
noncomputable def kernelRun0 (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec F S2x1024x256 .f32) (x1 : Vec F S256x768 .f32) (x2 : Vec F S1x768 .f32) :
    { L3 : List (View.Piece (Elt F) S2x1024x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ d, owns (c : Thread nD τ) arg5 fullShare d)) -∗ K ⟨⟩))
          ⊢ wp frame (wpE (defs₀ (F := F)) Variants.none c none) E (cc0__attn_kernel i arg1 harg1 arg2 harg2 arg3 harg3 arg4 harg4 arg5 harg5) K } := by
  refine ⟨?_, fun E K => ?run⟩
  case run =>
    simp only [cc0__attn_kernel_eq_skeleton]; unfold cc0__attn_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    iexists _; iexists _; isplitr
    swap; · iexact H4
    ipureintro; rfl

end Cert.KernelIdeal.Region

end
-- ==== Proof.KernelIdealRun.lean ====
/-
  The attention region's run, and the frame claim.

  The four pieces the body stores tile the output block (rows [0, 256), [256, 512), [512, 768), [768, 1024) of both
  batches), so what the output's staging buffer holds after the body does not depend on what it held before: it is the
  pieces read back. With that as the output window's contents after each point, the three inputs' blocks as theirs, and
  the scratch and the generator register kept at anything between points, the body meets the pipeline's obligation at
  every grid point, the region runs to the end, and the argument arrays end as launched.
-/
import proofs.«403941_j26371099197827_3_alg».proof.Proof.KernelIdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's pieces tile the output block, so they cover it. -/
theorem cover0_3 (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec F S2x1024x256 .f32) (x1 : Vec F S256x768 .f32) (x2 : Vec F S1x768 .f32) (y : S2x1024x256.Idx) :
    ∃ pc ∈ (kernelRun0 c i arg1 harg1 arg2 harg2 arg3 harg3 arg4 harg4 arg5 harg5 x0 x1 x2).1, y ∈ pc.1.set :=
  View.cover_of_tiledL (kernelRun0 c i arg1 harg1 arg2 harg2 arg3 harg3 arg4 harg4 arg5 harg5 x0 x1 x2).1 S2x256x256.size (by sl_kernel_rfl) y

/-- What the body leaves in the output's staging buffer: its pieces read back. -/
def out0_3 (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec F S2x1024x256 .f32) (x1 : Vec F S256x768 .f32) (x2 : Vec F S1x768 .f32) : Vec F S2x1024x256 .f32 :=
  VO0_3.read (Elt F) (VO0_3.writes (Elt F) VO0_3.junk (kernelRun0 c i arg1 harg1 arg2 harg2 arg3 harg3 arg4 harg4 arg5 harg5 x0 x1 x2).1)

/-! ## The pipeline's proof data -/

/-- The arrays as the region finds them; after the body at point `t` each input's buffer at its block and the output's
    at the body's pieces over the input blocks; between points the scratch and the generator register at anything;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = out0_3 c (grid0.coords t) (ms0_0 t) (hs0_0 t) (ms0_1 t) (hs0_1 t) (ms0_2 t) (hs0_2 t) (ms0_3 t) (hs0_3 t) scM0_0 (Memref.isWhole_whole _) (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 2000000 in
/-- The body at any point: the inputs' buffers hold their blocks, the output's buffer and the scratch hold anything, so the
    body's run applies; the output's buffer ends at the pieces read back, because they cover it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold out0_3
  iintro ⟨⟨HS, Hg⟩, Ho, ⟨%d0, H0⟩, ⟨%d1, H1⟩, ⟨%d2, H2⟩, ⟨%d3, H3⟩⟩
  iapply ((kernelRun0 c (grid0.coords t) _ _ _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  isplitl [HS]; · iexact HS
  iintro ⟨H0, H1, H2, ⟨%e3, H3⟩, HS⟩
  isplitl [HS Hg]
  · isplitl [HS]; · iexact HS
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover0_3 c _ _ _ _ _ _ _ _ _ _ _ _ _ _)

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each staged array at the contents the
    proof data gives it and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Region

end
-- ==== Proof.AttnSpec.lean ====
/-
  Attention over a trajectory, as one function of the seven argument arrays, and the one law that joins the two
  ways of normalising it.

  For a batch `b`, a query row `n` and an output column `e`: queries, keys and values are linear projections of the
  trajectory with a bias, `proj X W β b n e = (∑ c, X b n c · W e c) + β e`; the score of key row `j` is
  `∑ d, q b n d · k b j d`; the weight of `j` is `exp (score j - M)` with `M` the row's largest score; the output is
  the weighted sum of the values' column `e` divided by the sum of the weights (`attnRow`). The other arrangement
  divides each weight by the sum first and then takes the weighted sum (`attnRowPre`). When every score and every
  value is a real number the weights are positive reals, their sum is a positive real, and division by it distributes
  over the finite sum: the two arrangements agree (`attnRowPre_eq`).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## Real entries -/

/-- An extended real that is a real number. -/
def IsReal (x : EReal) : Prop := x ≠ ⊤ ∧ x ≠ ⊥

theorem IsReal.coe (r : ℝ) : IsReal (r : EReal) := ⟨EReal.coe_ne_top r, EReal.coe_ne_bot r⟩

theorem IsReal.exists {x : EReal} (h : IsReal x) : ∃ r : ℝ, x = (r : EReal) := by
  lift x to ℝ using h
  exact ⟨x, rfl⟩

theorem IsReal.add {x y : EReal} (hx : IsReal x) (hy : IsReal y) : IsReal (x + y) := by
  obtain ⟨a, rfl⟩ := hx.exists; obtain ⟨b, rfl⟩ := hy.exists
  rw [← EReal.coe_add]; exact IsReal.coe _

theorem IsReal.mul {x y : EReal} (hx : IsReal x) (hy : IsReal y) : IsReal (x * y) := by
  obtain ⟨a, rfl⟩ := hx.exists; obtain ⟨b, rfl⟩ := hy.exists
  rw [← EReal.coe_mul]; exact IsReal.coe _

theorem IsReal.sub {x y : EReal} (hx : IsReal x) (hy : IsReal y) : IsReal (x - y) := by
  obtain ⟨a, rfl⟩ := hx.exists; obtain ⟨b, rfl⟩ := hy.exists
  rw [← EReal.coe_sub]; exact IsReal.coe _

theorem IsReal.zero : IsReal (0 : EReal) := by
  have := IsReal.coe 0; simpa using this

theorem IsReal.sum {J : Type} (s : Finset J) (f : J → EReal) (h : ∀ j ∈ s, IsReal (f j)) : IsReal (∑ j ∈ s, f j) := by
  classical
  induction s using Finset.induction_on with
  | empty => simpa using IsReal.zero
  | insert a s ha ih =>
    rw [Finset.sum_insert ha]
    exact (h a (Finset.mem_insert_self a s)).add (ih fun j hj => h j (Finset.mem_insert_of_mem hj))

/-- A finite sum of real numbers, read in the extended reals, is the real sum. -/
theorem coe_sum {J : Type} (s : Finset J) (f : J → ℝ) : (((∑ j ∈ s, f j : ℝ)) : EReal) = ∑ j ∈ s, (f j : EReal) := by
  classical
  induction s using Finset.induction_on with
  | empty => simp
  | insert a s ha ih => rw [Finset.sum_insert ha, Finset.sum_insert ha, EReal.coe_add, ih]

/-! ## The function -/

/-- The word of minus infinity denotes the bottom of the extended reals. -/
theorem negInf_eq : Ideal.ofBits .f32 0xFF800000#32 = (⊥ : EReal) := by
  simp [Ideal.ofBits, Ideal.ieee]

/-- A linear projection with bias: row `n` of batch `b` of `X` against row `e` of `W`, plus `β e`. -/
def proj (X : (⟨3, ![32, 1024, 256]⟩ : Shape).Idx → EReal) (W : (⟨2, ![256, 256]⟩ : Shape).Idx → EReal)
    (β : (⟨1, ![256]⟩ : Shape).Idx → EReal) (b : Fin 32) (n : Fin 1024) (e : Fin 256) : EReal :=
  (∑ c : Fin 256, X (ix3 b n c) * W (ix2 e c)) + β (ix1 e)

/-- The score of key row `j` for query row `n`: the two rows' inner product. -/
def score (Q K : Fin 32 → Fin 1024 → Fin 256 → EReal) (b : Fin 32) (n j : Fin 1024) : EReal :=
  ∑ d : Fin 256, Q b n d * K b j d

section Row
variable {J : Type} [Fintype J]

/-- The largest entry of a row, taken from minus infinity. -/
def rowMax (s : J → EReal) : EReal := (Finset.univ : Finset J).fold max ⊥ s

/-- The weight of entry `j`: the exponential of its distance below the row's largest entry. -/
def wt (s : J → EReal) (j : J) : EReal := Ideal.exp (s j - rowMax s)

/-- The weighted sum of `v`, then divided by the sum of the weights. -/
def attnRow (s v : J → EReal) : EReal := Ideal.div (∑ j, wt s j * v j) (∑ j, wt s j)

/-- Each weight divided by the sum of the weights first, then the weighted sum of `v`. -/
def attnRowPre (s v : J → EReal) : EReal := ∑ j, Ideal.div (wt s j) (∑ j', wt s j') * v j

theorem le_rowMax (s : J → EReal) (j : J) : s j ≤ rowMax s := by
  unfold rowMax
  rw [Finset.le_fold_max]
  exact Or.inr ⟨j, Finset.mem_univ j, le_rfl⟩

/-- Over a nonempty finite set the running maximum from minus infinity is one of the entries: adding an entry
    either keeps the old maximum or replaces it by the new entry. -/
private theorem exists_mem_eq_fold_max (s : J → EReal) (t : Finset J) (ht : t.Nonempty) :
    ∃ j ∈ t, s j = t.fold max ⊥ s := by
  classical
  induction t using Finset.induction_on with
  | empty => exact absurd ht Finset.not_nonempty_empty
  | insert a t ha ih =>
    rw [Finset.fold_insert ha]
    rcases t.eq_empty_or_nonempty with rfl | hne
    · exact ⟨a, Finset.mem_insert_self a _, by simp⟩
    · obtain ⟨j, hj, hjm⟩ := ih hne
      rcases le_total (s a) (t.fold max ⊥ s) with h | h
      · exact ⟨j, Finset.mem_insert_of_mem hj, by rw [max_eq_right h]; exact hjm⟩
      · exact ⟨a, Finset.mem_insert_self a _, by rw [max_eq_left h]⟩

theorem exists_eq_rowMax [Nonempty J] (s : J → EReal) : ∃ j, s j = rowMax s := by
  obtain ⟨j, _, hj⟩ := exists_mem_eq_fold_max s Finset.univ Finset.univ_nonempty
  exact ⟨j, hj⟩

/-- Dividing after the weighted sum, or dividing every weight first, gives the same number when the scores and the
    values are real. -/
theorem attnRowPre_eq [Nonempty J] (s v : J → EReal) (hs : ∀ j, IsReal (s j)) (hv : ∀ j, IsReal (v j)) :
    attnRowPre s v = attnRow s v := by
  -- the largest score is attained, so it is a real number `M`
  obtain ⟨j0, hj0⟩ := exists_eq_rowMax s
  obtain ⟨M, hM⟩ := (hs j0).exists
  rw [hj0] at hM
  -- name the real scores and the real values
  choose sr hsr using fun j => (hs j).exists
  choose vr hvr using fun j => (hv j).exists
  -- every weight is the real exponential of a real difference
  have hw : ∀ j, wt s j = ((Real.exp (sr j - M) : ℝ) : EReal) := by
    intro j
    unfold wt
    rw [hM, hsr j, ← EReal.coe_sub, Ideal.exp_coe]
  -- the weights' sum is a real number, and it is positive
  have hL : (∑ j, wt s j) = ((∑ j, Real.exp (sr j - M) : ℝ) : EReal) := by
    rw [coe_sum]; exact Finset.sum_congr rfl fun j _ => hw j
  have hpos : (∑ j, Real.exp (sr j - M) : ℝ) ≠ 0 :=
    ne_of_gt (Finset.sum_pos (fun j _ => Real.exp_pos _) Finset.univ_nonempty)
  -- division by a nonzero real is multiplication by its reciprocal; then everything is a coerced real
  unfold attnRowPre attnRow
  rw [hL]
  simp only [Ideal.div_coe hpos, hw, hvr]
  simp only [← EReal.coe_mul, ← coe_sum]
  -- in the reals: (∑ w v) · L⁻¹ = ∑ (w · L⁻¹) · v
  congr 1
  rw [Finset.sum_mul]
  exact Finset.sum_congr rfl fun j _ => by ring

end Row

/-- Attention's output array from the seven arguments. -/
def G (X : (⟨3, ![32, 1024, 256]⟩ : Shape).Idx → EReal)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal) :
    (⟨3, ![32, 1024, 256]⟩ : Shape).Idx → EReal := fun i =>
  attnRow (fun j : Fin 1024 => score (proj X Wq bq) (proj X Wk bk) (i 0) (i 1) j) (fun j : Fin 1024 => proj X Wv bv (i 0) j (i 2))

/-- The same with every weight divided by the weights' sum first. -/
def Gpre (X : (⟨3, ![32, 1024, 256]⟩ : Shape).Idx → EReal)
    (Wq : (⟨2, ![256, 256]⟩ : Shape).Idx → EReal) (bq : (⟨1, ![256]⟩ : Shape).Idx → EReal)
    (Wk : (⟨2, ![256, 256]⟩ : Shape).Idx → EReal) (bk : (⟨1, ![256]⟩ : Shape).Idx → EReal)
    (Wv : (⟨2, ![256, 256]⟩ : Shape).Idx → EReal) (bv : (⟨1, ![256]⟩ : Shape).Idx → EReal) :
    (⟨3, ![32, 1024, 256]⟩ : Shape).Idx → EReal := fun i =>
  attnRowPre (fun j : Fin 1024 => score (proj X Wq bq) (proj X Wk bk) (i 0) (i 1) j) (fun j : Fin 1024 => proj X Wv bv (i 0) j (i 2))

theorem proj_isReal {X : (⟨3, ![32, 1024, 256]⟩ : Shape).Idx → EReal} {W : (⟨2, ![256, 256]⟩ : Shape).Idx → EReal}
    {β : (⟨1, ![256]⟩ : Shape).Idx → EReal} (hX : ∀ i, IsReal (X i)) (hW : ∀ i, IsReal (W i)) (hβ : ∀ i, IsReal (β i))
    (b : Fin 32) (n : Fin 1024) (e : Fin 256) : IsReal (proj X W β b n e) :=
  (IsReal.sum _ _ fun c _ => (hX _).mul (hW _)).add (hβ _)

/-- On real arguments the two arrangements are one array. -/
theorem Gpre_eq_G {X : (⟨3, ![32, 1024, 256]⟩ : Shape).Idx → EReal}
    {Wq : (⟨2, ![256, 256]⟩ : Shape).Idx → EReal} {bq : (⟨1, ![256]⟩ : Shape).Idx → EReal}
    {Wk : (⟨2, ![256, 256]⟩ : Shape).Idx → EReal} {bk : (⟨1, ![256]⟩ : Shape).Idx → EReal}
    {Wv : (⟨2, ![256, 256]⟩ : Shape).Idx → EReal} {bv : (⟨1, ![256]⟩ : Shape).Idx → EReal}
    (hX : ∀ i, IsReal (X i)) (hWq : ∀ i, IsReal (Wq i)) (hbq : ∀ i, IsReal (bq i)) (hWk : ∀ i, IsReal (Wk i)) (hbk : ∀ i, IsReal (bk i))
    (hWv : ∀ i, IsReal (Wv i)) (hbv : ∀ i, IsReal (bv i)) :
    Gpre X Wq bq Wk bk Wv bv = G X Wq bq Wk bk Wv bv := by
  funext i
  exact attnRowPre_eq _ _
    (fun j => IsReal.sum _ _ fun d _ => (proj_isReal hX hWq hbq _ _ _).mul (proj_isReal hX hWk hbk _ _ _))
    (fun j => proj_isReal hX hWv hbv _ _ _)

end Cert.Attn

end
-- ==== Proof.TileValue.lean ====
/-
  One query tile of the attention kernel, read entry by entry at the ideal values.

  The tile's payload takes the keys `K` and values `V` of the two batches of the block (each 2 x 1024 x 256) and a tile
  `Qt` of 256 query rows (2 x 256 x 256). Entry (b, i, e) of its result is: the scores `∑ d, Qt b i d · K b j d` of
  the 1024 key rows `j`, their largest entry taken from minus infinity, the weights `exp (score j - largest)`, the
  weighted sum of column `e` of the values, divided by the sum of the weights. The four tiles' payloads are one function.
-/
import proofs.«403941_j26371099197827_3_alg».proof.Proof.Gen.KernelIdeal.Skeleton
import proofs.«403941_j26371099197827_3_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Cert.Attn
open Idealize.ShloMosaic Idealize.ShloMosaic.ValueIdx

/-! ## The two contractions at an entry -/

/- Scores: the output entry (b, i, j) reads the left operand at (b, i, d) and the right one at (b, j, d), with d the
   contraction position's one coordinate. One lemma per operand axis. -/
private theorem qk_lhs0 (o : S2x256x1024.Idx) (q : dot_S2x256x256_S2x1024x256_S2x256x1024_2_2_1_1_0_0.contr.Idx) : (dot_S2x256x256_S2x1024x256_S2x256x1024_2_2_1_1_0_0.lhsIdx o q 0).val = (o 0).val := by
  unfold DotDims.lhsIdx
  rw [dif_pos (show (0 : Fin S2x256x256.rank) ∈ dot_S2x256x256_S2x1024x256_S2x256x1024_2_2_1_1_0_0.lhsBatch by decide)]
  rfl
private theorem qk_lhs1 (o : S2x256x1024.Idx) (q : dot_S2x256x256_S2x1024x256_S2x256x1024_2_2_1_1_0_0.contr.Idx) : (dot_S2x256x256_S2x1024x256_S2x256x1024_2_2_1_1_0_0.lhsIdx o q 1).val = (o 1).val := by
  unfold DotDims.lhsIdx
  rw [dif_neg (show ¬(1 : Fin S2x256x256.rank) ∈ dot_S2x256x256_S2x1024x256_S2x256x1024_2_2_1_1_0_0.lhsBatch by decide),
    dif_pos (show (1 : Fin S2x256x256.rank) ∈ dot_S2x256x256_S2x1024x256_S2x256x1024_2_2_1_1_0_0.lhsNonContracting by decide)]
  rfl
private theorem qk_lhs2 (o : S2x256x1024.Idx) (q : dot_S2x256x256_S2x1024x256_S2x256x1024_2_2_1_1_0_0.contr.Idx) : (dot_S2x256x256_S2x1024x256_S2x256x1024_2_2_1_1_0_0.lhsIdx o q 2).val = (q ⟨0, by decide⟩).val :=
  dot_S2x256x256_S2x1024x256_S2x256x1024_2_2_1_1_0_0.lhsIdx_val_of_single rfl o q
private theorem qk_rhs0 (o : S2x256x1024.Idx) (q : dot_S2x256x256_S2x1024x256_S2x256x1024_2_2_1_1_0_0.contr.Idx) : (dot_S2x256x256_S2x1024x256_S2x256x1024_2_2_1_1_0_0.rhsIdx o q 0).val = (o 0).val := by
  unfold DotDims.rhsIdx
  rw [dif_pos (show (0 : Fin S2x1024x256.rank) ∈ dot_S2x256x256_S2x1024x256_S2x256x1024_2_2_1_1_0_0.rhsBatch by decide)]
  rfl
private theorem qk_rhs1 (o : S2x256x1024.Idx) (q : dot_S2x256x256_S2x1024x256_S2x256x1024_2_2_1_1_0_0.contr.Idx) : (dot_S2x256x256_S2x1024x256_S2x256x1024_2_2_1_1_0_0.rhsIdx o q 1).val = (o 2).val := by
  unfold DotDims.rhsIdx
  rw [dif_neg (show ¬(1 : Fin S2x1024x256.rank) ∈ dot_S2x256x256_S2x1024x256_S2x256x1024_2_2_1_1_0_0.rhsBatch by decide),
    dif_pos (show (1 : Fin S2x1024x256.rank) ∈ dot_S2x256x256_S2x1024x256_S2x256x1024_2_2_1_1_0_0.rhsNonContracting by decide)]
  rfl
private theorem qk_rhs2 (o : S2x256x1024.Idx) (q : dot_S2x256x256_S2x1024x256_S2x256x1024_2_2_1_1_0_0.contr.Idx) : (dot_S2x256x256_S2x1024x256_S2x256x1024_2_2_1_1_0_0.rhsIdx o q 2).val = (q ⟨0, by decide⟩).val :=
  dot_S2x256x256_S2x1024x256_S2x256x1024_2_2_1_1_0_0.rhsIdx_val_of_single rfl o q

/-- The score of key row j for query row i of batch b: the two rows' inner product. -/
private theorem scores_apply (Q : FVec Ideal S2x256x256 .bf16) (K : FVec Ideal S2x1024x256 .bf16) (b : Fin 2) (i : Fin 256)
    (j : Fin 1024) :
    matmul dot_S2x256x256_S2x1024x256_S2x256x1024_2_2_1_1_0_0 none Q K (constant (F := Ideal) S2x256x1024 .f32 0x00000000#32) (ix3 b i j)
      = ∑ d : Fin 256, Q (ix3 b i d) * K (ix3 b j d) := by
  simp only [matmul]
  rw [Ideal.matmul_constant_zero_apply, ← Equiv.sum_comp (contrEquiv1 dot_S2x256x256_S2x1024x256_S2x256x1024_2_2_1_1_0_0 256 rfl rfl).symm]
  refine Finset.sum_congr rfl fun d _ => ?_
  have hd := contrEquiv1_symm_val dot_S2x256x256_S2x1024x256_S2x256x1024_2_2_1_1_0_0 256 rfl rfl d
  have el : dot_S2x256x256_S2x1024x256_S2x256x1024_2_2_1_1_0_0.lhsIdx (ix3 b i j) ((contrEquiv1 dot_S2x256x256_S2x1024x256_S2x256x1024_2_2_1_1_0_0 256 rfl rfl).symm d) = ix3 b i d := funext fun a => Fin.ext (by
    match a with
    | ⟨0, _⟩ => exact qk_lhs0 _ _
    | ⟨1, _⟩ => exact qk_lhs1 _ _
    | ⟨2, _⟩ => exact (qk_lhs2 _ _).trans hd)
  have er : dot_S2x256x256_S2x1024x256_S2x256x1024_2_2_1_1_0_0.rhsIdx (ix3 b i j) ((contrEquiv1 dot_S2x256x256_S2x1024x256_S2x256x1024_2_2_1_1_0_0 256 rfl rfl).symm d) = ix3 b j d := funext fun a => Fin.ext (by
    match a with
    | ⟨0, _⟩ => exact qk_rhs0 _ _
    | ⟨1, _⟩ => exact qk_rhs1 _ _
    | ⟨2, _⟩ => exact (qk_rhs2 _ _).trans hd)
  rw [el, er]

/- Weighted values: the output entry (b, i, e) reads the left operand at (b, i, j) and the right one at (b, j, e). -/
private theorem pv_lhs0 (o : S2x256x256.Idx) (q : dot_S2x256x1024_S2x1024x256_S2x256x256_2_1_1_2_0_0.contr.Idx) : (dot_S2x256x1024_S2x1024x256_S2x256x256_2_1_1_2_0_0.lhsIdx o q 0).val = (o 0).val := by
  unfold DotDims.lhsIdx
  rw [dif_pos (show (0 : Fin S2x256x1024.rank) ∈ dot_S2x256x1024_S2x1024x256_S2x256x256_2_1_1_2_0_0.lhsBatch by decide)]
  rfl
private theorem pv_lhs1 (o : S2x256x256.Idx) (q : dot_S2x256x1024_S2x1024x256_S2x256x256_2_1_1_2_0_0.contr.Idx) : (dot_S2x256x1024_S2x1024x256_S2x256x256_2_1_1_2_0_0.lhsIdx o q 1).val = (o 1).val := by
  unfold DotDims.lhsIdx
  rw [dif_neg (show ¬(1 : Fin S2x256x1024.rank) ∈ dot_S2x256x1024_S2x1024x256_S2x256x256_2_1_1_2_0_0.lhsBatch by decide),
    dif_pos (show (1 : Fin S2x256x1024.rank) ∈ dot_S2x256x1024_S2x1024x256_S2x256x256_2_1_1_2_0_0.lhsNonContracting by decide)]
  rfl
private theorem pv_lhs2 (o : S2x256x256.Idx) (q : dot_S2x256x1024_S2x1024x256_S2x256x256_2_1_1_2_0_0.contr.Idx) : (dot_S2x256x1024_S2x1024x256_S2x256x256_2_1_1_2_0_0.lhsIdx o q 2).val = (q ⟨0, by decide⟩).val :=
  dot_S2x256x1024_S2x1024x256_S2x256x256_2_1_1_2_0_0.lhsIdx_val_of_single rfl o q
private theorem pv_rhs0 (o : S2x256x256.Idx) (q : dot_S2x256x1024_S2x1024x256_S2x256x256_2_1_1_2_0_0.contr.Idx) : (dot_S2x256x1024_S2x1024x256_S2x256x256_2_1_1_2_0_0.rhsIdx o q 0).val = (o 0).val := by
  unfold DotDims.rhsIdx
  rw [dif_pos (show (0 : Fin S2x1024x256.rank) ∈ dot_S2x256x1024_S2x1024x256_S2x256x256_2_1_1_2_0_0.rhsBatch by decide)]
  rfl
private theorem pv_rhs1 (o : S2x256x256.Idx) (q : dot_S2x256x1024_S2x1024x256_S2x256x256_2_1_1_2_0_0.contr.Idx) : (dot_S2x256x1024_S2x1024x256_S2x256x256_2_1_1_2_0_0.rhsIdx o q 1).val = (q ⟨0, by decide⟩).val :=
  dot_S2x256x1024_S2x1024x256_S2x256x256_2_1_1_2_0_0.rhsIdx_val_of_single rfl o q
private theorem pv_rhs2 (o : S2x256x256.Idx) (q : dot_S2x256x1024_S2x1024x256_S2x256x256_2_1_1_2_0_0.contr.Idx) : (dot_S2x256x1024_S2x1024x256_S2x256x256_2_1_1_2_0_0.rhsIdx o q 2).val = (o 2).val := by
  unfold DotDims.rhsIdx
  rw [dif_neg (show ¬(2 : Fin S2x1024x256.rank) ∈ dot_S2x256x1024_S2x1024x256_S2x256x256_2_1_1_2_0_0.rhsBatch by decide),
    dif_pos (show (2 : Fin S2x1024x256.rank) ∈ dot_S2x256x1024_S2x1024x256_S2x256x256_2_1_1_2_0_0.rhsNonContracting by decide)]
  rfl

/-- Row i of the weights against column e of the values. -/
private theorem weighted_apply (P : FVec Ideal S2x256x1024 .bf16) (V : FVec Ideal S2x1024x256 .bf16) (b : Fin 2) (i e : Fin 256) :
    matmul dot_S2x256x1024_S2x1024x256_S2x256x256_2_1_1_2_0_0 none P V (constant (F := Ideal) S2x256x256 .f32 0x00000000#32) (ix3 b i e)
      = ∑ j : Fin 1024, P (ix3 b i j) * V (ix3 b j e) := by
  simp only [matmul]
  rw [Ideal.matmul_constant_zero_apply, ← Equiv.sum_comp (contrEquiv1 dot_S2x256x1024_S2x1024x256_S2x256x256_2_1_1_2_0_0 1024 rfl rfl).symm]
  refine Finset.sum_congr rfl fun j _ => ?_
  have hj := contrEquiv1_symm_val dot_S2x256x1024_S2x1024x256_S2x256x256_2_1_1_2_0_0 1024 rfl rfl j
  have el : dot_S2x256x1024_S2x1024x256_S2x256x256_2_1_1_2_0_0.lhsIdx (ix3 b i e) ((contrEquiv1 dot_S2x256x1024_S2x1024x256_S2x256x256_2_1_1_2_0_0 1024 rfl rfl).symm j) = ix3 b i j := funext fun a => Fin.ext (by
    match a with
    | ⟨0, _⟩ => exact pv_lhs0 _ _
    | ⟨1, _⟩ => exact pv_lhs1 _ _
    | ⟨2, _⟩ => exact (pv_lhs2 _ _).trans hj)
  have er : dot_S2x256x1024_S2x1024x256_S2x256x256_2_1_1_2_0_0.rhsIdx (ix3 b i e) ((contrEquiv1 dot_S2x256x1024_S2x1024x256_S2x256x256_2_1_1_2_0_0 1024 rfl rfl).symm j) = ix3 b j e := funext fun a => Fin.ext (by
    match a with
    | ⟨0, _⟩ => exact pv_rhs0 _ _
    | ⟨1, _⟩ => exact (pv_rhs1 _ _).trans hj
    | ⟨2, _⟩ => exact pv_rhs2 _ _)
  rw [el, er]

/-! ## The row reductions and the column that carries them back -/

/-- Inserting the coordinate k on the last axis of (b, i) gives (b, i, k). -/
private theorem lift_row (h : S2x256x1024.Reduces [2] S2x256) (b : Fin 2) (i : Fin 256) (k : Fin 1024) :
    h.lift (ix2 b i) k = ix3 b i k := by
  funext c
  apply Fin.ext
  show h.liftVal (ix2 b i) k.val c = (ix3 b i k c).val
  unfold Shape.Reduces.liftVal
  match c with
  | ⟨0, _⟩ => rfl
  | ⟨1, _⟩ => rfl
  | ⟨2, _⟩ => rfl

/-- The largest entry of row (b, i), taken from minus infinity. -/
private theorem rowmax_apply (x : FVec Ideal S2x256x1024 .f32) (h : S2x256x1024.Reduces [2] S2x256) (hφ : FKind.Formats .f32)
    (hacc : (0xFF800000#32 : BitVec FTy.f32.bits) = FKind.maximumf.neutral .f32 hφ) (b : Fin 2) (i : Fin 256) :
    multiReduction (F := Ideal) .maximumf [2] S2x256 x 0xFF800000#32 h hφ hacc (ix2 b i)
      = rowMax (fun j : Fin 1024 => x (ix3 b i j)) := by
  refine (Ideal.multiReduction_maximumf_single x 0xFF800000#32 h hφ hacc (ix2 b i)).trans ?_
  unfold rowMax
  have e : (x ∘ h.lift (ix2 b i)) = fun j : Fin 1024 => x (ix3 b i j) := funext fun k => congrArg x (lift_row h b i k)
  rw [e]
  exact congrArg (fun z => (Finset.univ : Finset (Fin 1024)).fold max z fun j : Fin 1024 => x (ix3 b i j)) negInf_eq

/-- The sum of row (b, i). -/
private theorem rowsum_apply (x : FVec Ideal S2x256x1024 .f32) (h : S2x256x1024.Reduces [2] S2x256) (hφ : FKind.Formats .f32)
    (hacc : (0x00000000#32 : BitVec FTy.f32.bits) = FKind.add.neutral .f32 hφ) (b : Fin 2) (i : Fin 256) :
    multiReduction (F := Ideal) .add [2] S2x256 x 0x00000000#32 h hφ hacc (ix2 b i) = ∑ j : Fin 1024, x (ix3 b i j) := by
  refine (Ideal.multiReduction_add_single x 0x00000000#32 h hφ hacc (ix2 b i)).trans ?_
  exact Finset.sum_congr rfl fun k _ => congrArg x (lift_row h b i k)

/-- A per-row number, written as a column and repeated along a row of any length n, reads the row's number. -/
private theorem keep_apply {n : Nat} (y : FVec Ideal S2x256 .f32) (hc : S2x256.ShapeCasts S2x256x1)
    (hb : S2x256x1.Broadcasts (⟨3, ![2, 256, n]⟩ : Shape)) (b : Fin 2) (i : Fin 256) (j : Fin n) :
    broadcastTo (⟨3, ![2, 256, n]⟩ : Shape) (shapeCast S2x256x1 y hc) hb (ix3 b i j) = y (ix2 b i) := by
  refine (broadcastTo_apply _ hb (ix3 b i j) (ix3 b i (0 : Fin 1)) ?_).trans ?_
  · intro a
    match a with
    | ⟨0, _⟩ => rfl
    | ⟨1, _⟩ => rfl
    | ⟨2, _⟩ => rfl
  · refine shapeCast_apply y hc (ix3 b i (0 : Fin 1)) (ix2 b i) ?_
    rw [Shape.rowMajor_val_two, Shape.rowMajor_val_three]
    show (b.val * 256 + i.val) = ((b.val * 256 + i.val) * 1 + 0)
    omega

/-- The weight of key row j in row (b, i): the exponential of the score's distance below the row's largest. -/
private theorem weight_apply (S : FVec Ideal S2x256x1024 .f32) (h : S2x256x1024.Reduces [2] S2x256) (hφ : FKind.Formats .f32)
    (hacc : (0xFF800000#32 : BitVec FTy.f32.bits) = FKind.maximumf.neutral .f32 hφ) (hc : S2x256.ShapeCasts S2x256x1)
    (hb : S2x256x1.Broadcasts S2x256x1024) (b : Fin 2) (i : Fin 256) (j : Fin 1024) :
    exp (subf S (broadcastTo S2x256x1024 (shapeCast S2x256x1 (multiReduction (F := Ideal) .maximumf [2] S2x256 S 0xFF800000#32 h hφ hacc) hc) hb))
        (ix3 b i j)
      = wt (fun j' : Fin 1024 => S (ix3 b i j')) j := by
  unfold wt
  refine congrArg Ideal.exp (congrArg (S (ix3 b i j) - ·) ?_)
  exact (keep_apply _ hc hb b i j).trans (rowmax_apply S h hφ hacc b i)

/-- A tile's result at entry (b, i, e). -/
theorem tile_apply (K V : FVec Ideal S2x1024x256 .bf16) (Qt : Vec Ideal S2x256x256 .bf16) (b : Fin 2) (i e : Fin 256) :
    k0_pay1 (F := Ideal) K V Qt (ix3 b i e)
      = attnRow (fun j : Fin 1024 => ∑ d : Fin 256, Qt (ix3 b i d) * K (ix3 b j d)) (fun j : Fin 1024 => V (ix3 b j e)) := by
  unfold k0_pay1 attnRow
  rw [divf_apply]
  -- the scores, as one array
  generalize hS : matmul dot_S2x256x256_S2x1024x256_S2x256x1024_2_2_1_1_0_0 none Qt K (constant (F := Ideal) S2x256x1024 .f32 0x00000000#32) = S
  have hs : (fun j : Fin 1024 => S (ix3 b i j)) = fun j : Fin 1024 => ∑ d : Fin 256, Qt (ix3 b i d) * K (ix3 b j d) :=
    funext fun j => by rw [← hS]; exact scores_apply Qt K b i j
  rw [← hs]
  refine congrArg₂ Ideal.div ?_ ?_
  · refine (weighted_apply _ V b i e).trans (Finset.sum_congr rfl fun j _ => ?_)
    rw [truncf_apply]
    exact congrArg (· * V (ix3 b j e)) (weight_apply S _ _ _ _ _ b i j)
  · refine (keep_apply _ _ _ b i e).trans ((rowsum_apply _ _ _ _ b i).trans (Finset.sum_congr rfl fun j _ => ?_))
    exact weight_apply S _ _ _ _ _ b i j

/-- The second, third and fourth tiles' payloads are the first's; the first tile's, written over the block's inputs, is
    it at the block's keys and values. -/
theorem pay7_eq (K V : FVec Ideal S2x1024x256 .bf16) (Qt : Vec Ideal S2x256x256 .bf16) : k0_pay7 (F := Ideal) K V Qt = k0_pay1 K V Qt := rfl
theorem pay8_eq (K V : FVec Ideal S2x1024x256 .bf16) (Qt : Vec Ideal S2x256x256 .bf16) : k0_pay8 (F := Ideal) K V Qt = k0_pay1 K V Qt := rfl
theorem pay6_eq (x0 : Vec Ideal S2x1024x256 .f32) (x1 : Vec Ideal S256x768 .f32) (x2 : Vec Ideal S1x768 .f32) (Qt : Vec Ideal S2x256x256 .bf16) :
    k0_pay6 (F := Ideal) x0 x1 x2 Qt = k0_pay1 (k0_pay3 x0 x1 x2) (k0_pay4 x0 x1 x2) Qt := rfl

end Cert.KernelIdeal.Tile

end
-- ==== Proof.ProjValue.lean ====
/-
  The fused projection of one block, read entry by entry at the ideal values.

  The block's trajectory `x` (2 x 1024 x 256) is viewed as 2048 rows of 256 and multiplied into the laid-out weights
  `W` (256 x 768); the laid-out bias row `β` (1 x 768) is added to every row. Row b · 1024 + n, column c' of the result
  is `(∑ c, x b n c · W c c') + β 0 c'`. Columns [0, 256) viewed back as 2 x 1024 x 256 are the queries, columns
  [256, 512) the keys, columns [512, 768) the values.
-/
import proofs.«403941_j26371099197827_3_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Proj

open Cert.KernelIdeal Cert.KernelIdeal.Gen
open Idealize.ShloMosaic Idealize.ShloMosaic.ValueIdx

/-- Column `off + d` of the fused projection, for row `n` of batch `b` of the block. -/
def col (x : Vec Ideal S2x1024x256 .f32) (W : Vec Ideal S256x768 .f32) (β : Vec Ideal S1x768 .f32) (off : Nat) (hoff : off + 256 ≤ 768)
    (b : Fin 2) (n : Fin 1024) (d : Fin 256) : EReal :=
  (∑ c : Fin 256, x (ix3 b n c) * W (ix2 c ⟨off + d.val, by have := d.isLt; omega⟩)) + β (ix2 0 ⟨off + d.val, by have := d.isLt; omega⟩)

/-! The product's dimension numbers contract axis 1 of the left factor with axis 0 of the right one: at result entry
    (r, c') and contraction position k the left factor is read at (r, k) and the right one at (k, c'). One lemma per
    axis. -/

private theorem lhs_proj_0 (i : S2048x768.Idx) (q : dot_S2048x256_S256x768_S2048x768_1_0_0_1_n_n.contr.Idx) :
    (dot_S2048x256_S256x768_S2048x768_1_0_0_1_n_n.lhsIdx i q 0).val = (i 0).val := by
  unfold DotDims.lhsIdx
  rw [dif_neg (show ¬(0 : Fin S2048x256.rank) ∈ dot_S2048x256_S256x768_S2048x768_1_0_0_1_n_n.lhsBatch by decide), dif_pos (show (0 : Fin S2048x256.rank) ∈ dot_S2048x256_S256x768_S2048x768_1_0_0_1_n_n.lhsNonContracting by decide)]
  rfl
private theorem lhs_proj_1 (i : S2048x768.Idx) (q : dot_S2048x256_S256x768_S2048x768_1_0_0_1_n_n.contr.Idx) :
    (dot_S2048x256_S256x768_S2048x768_1_0_0_1_n_n.lhsIdx i q 1).val = (q ⟨0, by decide⟩).val :=
  dot_S2048x256_S256x768_S2048x768_1_0_0_1_n_n.lhsIdx_val_of_single rfl i q
private theorem rhs_proj_0 (i : S2048x768.Idx) (q : dot_S2048x256_S256x768_S2048x768_1_0_0_1_n_n.contr.Idx) :
    (dot_S2048x256_S256x768_S2048x768_1_0_0_1_n_n.rhsIdx i q 0).val = (q ⟨0, by decide⟩).val :=
  dot_S2048x256_S256x768_S2048x768_1_0_0_1_n_n.rhsIdx_val_of_single rfl i q
private theorem rhs_proj_1 (i : S2048x768.Idx) (q : dot_S2048x256_S256x768_S2048x768_1_0_0_1_n_n.contr.Idx) :
    (dot_S2048x256_S256x768_S2048x768_1_0_0_1_n_n.rhsIdx i q 1).val = (i 1).val := by
  unfold DotDims.rhsIdx
  rw [dif_neg (show ¬(1 : Fin S256x768.rank) ∈ dot_S2048x256_S256x768_S2048x768_1_0_0_1_n_n.rhsBatch by decide), dif_pos (show (1 : Fin S256x768.rank) ∈ dot_S2048x256_S256x768_S2048x768_1_0_0_1_n_n.rhsNonContracting by decide)]
  rfl

/-- Row `r = b · 1024 + n`, column `c'` of the fused projection: the product into the zero accumulator is the bare sum
    over the 256 contraction positions; rounding to the narrow format is the identity on extended reals; the block viewed
    as 2048 rows has, at (r, k), the block's entry (b, n, k), the two having the same row-major position
    (b · 1024 + n) · 256 + k; and the bias row is repeated on every row. -/
private theorem pay2_apply (x : Vec Ideal S2x1024x256 .f32) (W : Vec Ideal S256x768 .f32) (β : Vec Ideal S1x768 .f32)
    (b : Fin 2) (n : Fin 1024) (c' : Fin 768) (r : Fin 2048) (hr : r.val = b.val * 1024 + n.val) :
    k0_pay2 (F := Ideal) x W β (ix2 r c') = (∑ c : Fin 256, x (ix3 b n c) * W (ix2 c c')) + β (ix2 (0 : Fin 1) c') := by
  unfold k0_pay2
  rw [addf_apply]
  congr 1
  · simp only [matmul]
    rw [Ideal.matmul_constant_zero_apply, ← Equiv.sum_comp (ValueIdx.contrEquiv1 dot_S2048x256_S256x768_S2048x768_1_0_0_1_n_n 256 rfl rfl).symm]
    refine Finset.sum_congr rfl fun k _ => ?_
    have hk := ValueIdx.contrEquiv1_symm_val dot_S2048x256_S256x768_S2048x768_1_0_0_1_n_n 256 rfl rfl k
    have el : dot_S2048x256_S256x768_S2048x768_1_0_0_1_n_n.lhsIdx (ix2 r c') ((ValueIdx.contrEquiv1 dot_S2048x256_S256x768_S2048x768_1_0_0_1_n_n 256 rfl rfl).symm k) = ix2 r k := funext fun a => Fin.ext (by
      match a with
      | ⟨0, _⟩ => exact lhs_proj_0 _ _
      | ⟨1, _⟩ => exact (lhs_proj_1 _ _).trans hk)
    have er : dot_S2048x256_S256x768_S2048x768_1_0_0_1_n_n.rhsIdx (ix2 r c') ((ValueIdx.contrEquiv1 dot_S2048x256_S256x768_S2048x768_1_0_0_1_n_n 256 rfl rfl).symm k) = ix2 k c' := funext fun a => Fin.ext (by
      match a with
      | ⟨0, _⟩ => exact (rhs_proj_0 _ _).trans hk
      | ⟨1, _⟩ => exact rhs_proj_1 _ _)
    rw [el, er, truncf_apply, truncf_apply, shapeCast_self]
    congr 1
    refine shapeCast_apply x shapeCasts_S2x1024x256_S2048x256 (ix2 r k) (ix3 b n k) ?_
    rw [Shape.rowMajor_val_three, Shape.rowMajor_val_two]
    show (b.val * 1024 + n.val) * 256 + k.val = r.val * 256 + k.val
    rw [hr]
  · rw [shapeCast_self]
    exact broadcastTo_1b_ab_apply β _ r c'

/-- Columns [off, off + 256) of the fused projection, cut out of the 2048 x 768 product and viewed back as
    2 x 1024 x 256: entry (b, n, d) sits at row-major position (b · 1024 + n) · 256 + d, which is entry
    (b · 1024 + n, d) of the cut, which is row b · 1024 + n, column off + d of the product. -/
private theorem slab_apply (x : Vec Ideal S2x1024x256 .f32) (W : Vec Ideal S256x768 .f32) (β : Vec Ideal S1x768 .f32)
    (off : Nat) (hoff : off + 256 ≤ 768) (hs : S2048x768.Slices ![0, off] S2048x256)
    (b : Fin 2) (n : Fin 1024) (d : Fin 256) :
    shapeCast S2x1024x256 (truncf .bf16 (extractStridedSlice S2048x256 ![0, off] (k0_pay2 (F := Ideal) x W β) hs) bitsLt_bf16_f32)
      shapeCasts_S2048x256_S2x1024x256 (ix3 b n d) = col x W β off hoff b n d := by
  have hrow : b.val * 1024 + n.val < 2048 := by have := b.isLt; have := n.isLt; omega
  have hcol : off + d.val < 768 := by have := d.isLt; omega
  refine (shapeCast_apply _ shapeCasts_S2048x256_S2x1024x256 (ix3 b n d) (ix2 (⟨b.val * 1024 + n.val, hrow⟩ : Fin 2048) d) ?_).trans ?_
  · rw [Shape.rowMajor_val_two, Shape.rowMajor_val_three]
    show (b.val * 1024 + n.val) * 256 + d.val = (b.val * 1024 + n.val) * 256 + d.val
    rfl
  rw [truncf_apply]
  refine (slice2_axis1_apply off (k0_pay2 (F := Ideal) x W β) hs (⟨b.val * 1024 + n.val, hrow⟩ : Fin 2048) d (⟨off + d.val, hcol⟩ : Fin 768) rfl).trans ?_
  exact pay2_apply x W β b n ⟨off + d.val, hcol⟩ ⟨b.val * 1024 + n.val, hrow⟩ rfl

/-- The queries parked in the scratch. -/
theorem pay5_apply (x : Vec Ideal S2x1024x256 .f32) (W : Vec Ideal S256x768 .f32) (β : Vec Ideal S1x768 .f32) (b : Fin 2) (n : Fin 1024) (d : Fin 256) :
    k0_pay5 (F := Ideal) x W β (ix3 b n d) = col x W β 0 (by decide) b n d := by
  unfold k0_pay5
  rw [shapeCast_self]
  exact slab_apply x W β 0 (by decide) slices_S2048x768_o0_0_S2048x256 b n d
/-- The keys. -/
theorem pay3_apply (x : Vec Ideal S2x1024x256 .f32) (W : Vec Ideal S256x768 .f32) (β : Vec Ideal S1x768 .f32) (b : Fin 2) (n : Fin 1024) (d : Fin 256) :
    k0_pay3 (F := Ideal) x W β (ix3 b n d) = col x W β 256 (by decide) b n d := by
  unfold k0_pay3
  exact slab_apply x W β 256 (by decide) slices_S2048x768_o0_256_S2048x256 b n d
/-- The values. -/
theorem pay4_apply (x : Vec Ideal S2x1024x256 .f32) (W : Vec Ideal S256x768 .f32) (β : Vec Ideal S1x768 .f32) (b : Fin 2) (n : Fin 1024) (d : Fin 256) :
    k0_pay4 (F := Ideal) x W β (ix3 b n d) = col x W β 512 (by decide) b n d := by
  unfold k0_pay4
  exact slab_apply x W β 512 (by decide) slices_S2048x768_o0_512_S2048x256 b n d

end Cert.KernelIdeal.Proj

end
-- ==== Proof.OutBlock.lean ====
/-
  What the body leaves in the output's staging buffer, entry by entry.

  The buffer ends holding four tiles, rows [0, 256), [256, 512), [512, 768), [768, 1024) of both batches of the block.
  Tile r is the tile payload applied to the block's keys and values and to rows [256 r, 256 r + 256) of the queries the
  body parked in its scratch (a read of the scratch after the one store that filled it reads what was stored). The four
  payloads are one function, so every entry (b, n, e) of the buffer is the attention of query row n of batch b against
  all 1024 key rows of that batch, column e: one function `Gblk` of the block's queries, keys and values.
-/
import proofs.«403941_j26371099197827_3_alg».proof.Proof.KernelIdealRun
import proofs.«403941_j26371099197827_3_alg».proof.Proof.TileValue
import proofs.«403941_j26371099197827_3_alg».proof.Proof.ProjValue

set_option maxRecDepth 16384

noncomputable section

namespace Cert.KernelIdeal.Region

open Cert.KernelIdeal Cert.KernelIdeal.Gen Cert.Attn
open Idealize.ShloMosaic Idealize.ShloMosaic.TcCoe Idealize.ShloMosaic.Tactic Idealize.ShloMosaic.ValueIdx
open Idealize.SL Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-- Rows [o, o + 256) of both batches of the block. -/
abbrev tileRect (o : Nat) (h : ∀ a, (![0, o, 0] : Fin 3 → Nat) a + (![2, 256, 256] : Fin 3 → Nat) a ≤ S2x1024x256.size a) : Rect S2x1024x256 :=
  Rect.unit (s := S2x1024x256) ![0, o, 0] ![2, 256, 256] h

theorem inb0 : ∀ a, (![0, 0, 0] : Fin 3 → Nat) a + (![2, 256, 256] : Fin 3 → Nat) a ≤ S2x1024x256.size a := by decide
theorem inb256 : ∀ a, (![0, 256, 0] : Fin 3 → Nat) a + (![2, 256, 256] : Fin 3 → Nat) a ≤ S2x1024x256.size a := by decide
theorem inb512 : ∀ a, (![0, 512, 0] : Fin 3 → Nat) a + (![2, 256, 256] : Fin 3 → Nat) a ≤ S2x1024x256.size a := by decide
theorem inb768 : ∀ a, (![0, 768, 0] : Fin 3 → Nat) a + (![2, 256, 256] : Fin 3 → Nat) a ≤ S2x1024x256.size a := by decide

section AnyInstance
variable {F : FTy → Type} [FloatOps F]

/-- A read of the scratch through any rectangle, after one store filled the whole scratch, is the stored array read
    through that rectangle. -/
theorem readCov_whole {κ : Kind} {sp : Space} (v : View sig κ sp S2x1024x256 .bf16) (w : S2x1024x256.Idx → Elt F .bf16)
    (inb : ∀ a, (![0, 0, 0] : Fin 3 → Nat) a + S2x1024x256.size a ≤ S2x1024x256.size a) (r : Rect S2x1024x256) :
    v.readCov [(⟨Rect.unit ![0, 0, 0] S2x1024x256.size inb, w⟩ : View.Piece (Elt F) S2x1024x256 .bf16)] r.toLoadRect = View.ld w r := by
  rw [View.readCov_eq_canon_ld _ _ _ (fun y => ⟨_, List.mem_singleton_self _, View.mem_set_unit_zero hz3 inb y⟩), View.canon_unit_zero hz3]

/-- The same, the whole scratch's extents spelt as numerals. -/
theorem readCov_whole' {κ : Kind} {sp : Space} (v : View sig κ sp S2x1024x256 .bf16) (w : S2x1024x256.Idx → Elt F .bf16)
    (inb : ∀ a, (![0, 0, 0] : Fin 3 → Nat) a + (![2, 1024, 256] : Fin 3 → Nat) a ≤ S2x1024x256.size a) (r : Rect S2x1024x256) :
    v.readCov [(⟨Rect.unit (s := S2x1024x256) ![0, 0, 0] ![2, 1024, 256] inb, w⟩ : View.Piece (Elt F) S2x1024x256 .bf16)] r.toLoadRect = View.ld w r :=
  readCov_whole v w inb r

/-- The output's staging buffer after the body: four tiles, each the tile payload over the block's keys and values and
    the matching rows of the parked queries. -/
theorem out0_3_eq (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec F S2x1024x256 .f32) (x1 : Vec F S256x768 .f32) (x2 : Vec F S1x768 .f32) :
    out0_3 c i arg1 harg1 arg2 harg2 arg3 harg3 arg4 harg4 arg5 harg5 x0 x1 x2 = View.canon
      [⟨tileRect 768 inb768, k0_pay1 (k0_pay3 x0 x1 x2) (k0_pay4 x0 x1 x2) (View.ld (k0_pay5 x0 x1 x2) (tileRect 768 inb768))⟩,
       ⟨tileRect 512 inb512, k0_pay8 (k0_pay3 x0 x1 x2) (k0_pay4 x0 x1 x2) (View.ld (k0_pay5 x0 x1 x2) (tileRect 512 inb512))⟩,
       ⟨tileRect 256 inb256, k0_pay7 (k0_pay3 x0 x1 x2) (k0_pay4 x0 x1 x2) (View.ld (k0_pay5 x0 x1 x2) (tileRect 256 inb256))⟩,
       ⟨tileRect 0 inb0, k0_pay6 x0 x1 x2 (View.ld (k0_pay5 x0 x1 x2) (tileRect 0 inb0))⟩] := by
  unfold out0_3
  rw [View.read_writes_eq_canon _ _ _ (cover0_3 c i arg1 harg1 arg2 harg2 arg3 harg3 arg4 harg4 arg5 harg5 x0 x1 x2)]
  unfold kernelRun0
  dsimp only
  sl_unfold_words
  simp only [View.readAt_eq_ld, harg1.read_unread, harg2.read_unread, harg3.read_unread,
    View.ld_unit_zero (S := S2x1024x256) hz3, View.ld_unit_zero (S := S256x768) hz2, View.ld_unit_zero (S := S1x768) hz2, readCov_whole']

end AnyInstance

/-! ## At the ideal values: every entry of the buffer -/

/-- Attention inside one block from its queries `Q`, keys `K` and values `V`: entry (b, n, e) is the weighted sum of
    column `e` of batch `b`'s values, the weights from query row `n`'s scores against the batch's 1024 key rows,
    divided by the sum of the weights. -/
def Gblk (Q K V : Vec Ideal S2x1024x256 .bf16) : Vec Ideal S2x1024x256 .f32 := fun y =>
  attnRow (fun j : Fin 1024 => ∑ d : Fin 256, Q (ix3 (y 0 : Fin 2) (y 1 : Fin 1024) d) * K (ix3 (y 0 : Fin 2) j d))
    (fun j : Fin 1024 => V (ix3 (y 0 : Fin 2) j (y 2 : Fin 256)))

/-- Where a tile's rectangle puts entry (b, i, e) of the tile: row `o + i` of the block. -/
theorem tile_emb (o : Nat) (inb) (ho : o + 256 ≤ 1024) (b : Fin 2) (i e : Fin 256) :
    (tileRect o inb).emb (ix3 b i e) = ix3 b (⟨o + i.val, by have := i.isLt; omega⟩ : Fin 1024) e := by
  funext a; apply Fin.ext
  match a with
  | ⟨0, _⟩ => show 0 + 1 * b.val = b.val; omega
  | ⟨1, _⟩ => show o + 1 * i.val = o + i.val; omega
  | ⟨2, _⟩ => show 0 + 1 * e.val = e.val; omega

/-- A tile's payload over rows [o, o + 256) of the queries is the block's attention at the tile's entries. -/
theorem tile_piece (Q K V : Vec Ideal S2x1024x256 .bf16) (o : Nat) (inb) (ho : o + 256 ≤ 1024) (x : S2x256x256.Idx) :
    k0_pay1 (F := Ideal) K V (View.ld (Val := Elt Ideal) Q (tileRect o inb)) x = Gblk Q K V ((tileRect o inb).emb x) := by
  obtain ⟨b, i, e, rfl⟩ : ∃ (b : Fin 2) (i : Fin 256) (e : Fin 256), x = ix3 b i e := ⟨x 0, x 1, x 2, eq_ix3 x⟩
  rw [Tile.tile_apply, tile_emb o inb ho b i e]
  have hq : ∀ d : Fin 256, View.ld (Val := Elt Ideal) Q (tileRect o inb) (ix3 b i d) = Q (ix3 b (⟨o + i.val, by have := i.isLt; omega⟩ : Fin 1024) d) :=
    fun d => congrArg Q (tile_emb o inb ho b i d)
  simp only [hq]
  rfl

/-- Every entry of the output's staging buffer after the body is the block's attention, from the queries, keys and
    values the body projected. -/
theorem out0_3_apply (c : Dev nD) (i : grid0.Coords) (arg1 : Memref sig .tc .vmem S2x1024x256 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S2x1024x256 .f32) (harg4 : arg4.IsWhole) (arg5 : Memref sig .tc .vmem S2x1024x256 .bf16) (harg5 : arg5.IsWhole)
    (x0 : Vec Ideal S2x1024x256 .f32) (x1 : Vec Ideal S256x768 .f32) (x2 : Vec Ideal S1x768 .f32) (y : S2x1024x256.Idx) :
    out0_3 (F := Ideal) c i arg1 harg1 arg2 harg2 arg3 harg3 arg4 harg4 arg5 harg5 x0 x1 x2 y = Gblk (k0_pay5 x0 x1 x2) (k0_pay3 x0 x1 x2) (k0_pay4 x0 x1 x2) y := by
  rw [out0_3_eq]
  refine View.canon_apply_of_pieces (Val := Elt Ideal) (e := .f32) (Gblk (k0_pay5 x0 x1 x2) (k0_pay3 x0 x1 x2) (k0_pay4 x0 x1 x2)) _ ?_ y ?_
  · intro p hp x
    simp only [List.mem_cons, List.mem_nil_iff, or_false] at hp
    rcases hp with rfl | rfl | rfl | rfl
    · exact tile_piece _ _ _ 768 inb768 (by decide) x
    · exact (congrFun (Tile.pay8_eq _ _ _) x).trans (tile_piece _ _ _ 512 inb512 (by decide) x)
    · exact (congrFun (Tile.pay7_eq _ _ _) x).trans (tile_piece _ _ _ 256 inb256 (by decide) x)
    · exact (congrFun (Tile.pay6_eq _ _ _ _) x).trans (tile_piece _ _ _ 0 inb0 (by decide) x)
  · exact View.cover_of_tiledL _ ![2, 256, 256] (by sl_kernel_rfl) y

end Cert.KernelIdeal.Region

end
-- ==== Proof.LibNary3.lean ====
import Idealize.ShloMosaic.Lib.StableHlo.Run

/-!
# An operation over a literal family of three references

`StableHlo.nary` over a literal family `![x, a, b]` — a concatenate of three operands — leaves in its result buffer its
function applied to the three operands' contents, each read at its own reference: the family of contents is
`Fin.cons (F ↑x) (Fin.cons (F ↑a) (Fin.cons (F ↑b) _))`, which is `fun k => F ↑(![x, a, b] k)` entry by entry. The library
states this for four references (`StableHlo.nary4_result`); this is the same statement for three.
-/

noncomputable section

namespace Idealize.ShloMosaic.StableHlo

variable {τ : Topo} {sig : RefSig} {Val : EltTy → Type}
variable {x a b y : Ref sig .tc}

/-- The result of an operation over three literal references, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same equation, its left side not keyed on the result reference. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.Operands.lean ====
/-
  The two laid-out operands as the region finds them, read entry by entry.

  The weight operand is the three transposed weight matrices side by side: its entry (k, d), (k, 256 + d), (k, 512 + d)
  is entry (d, k) of the query, key and value weights. The bias operand is the three bias vectors end to end, viewed as
  one row: its entry (0, d), (0, 256 + d), (0, 512 + d) is entry d of the query, key and value biases.
-/
import proofs.«403941_j26371099197827_3_alg».proof.Proof.KernelIdealEntry
import proofs.«403941_j26371099197827_3_alg».proof.Proof.LibNary3
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Region

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The three weight arrays and the three bias arrays of core `c`, as launched. -/
abbrev wArg (c : Dev nD) : Fin 3 → (S256x256.Idx → EReal)
  | 0 => m ((c.tc : Thread nD τ).loc main_arg1) | 1 => m ((c.tc : Thread nD τ).loc main_arg3) | 2 => m ((c.tc : Thread nD τ).loc main_arg5)
abbrev bArg (c : Dev nD) : Fin 3 → (S256.Idx → EReal)
  | 0 => m ((c.tc : Thread nD τ).loc main_arg2) | 1 => m ((c.tc : Thread nD τ).loc main_arg4) | 2 => m ((c.tc : Thread nD τ).loc main_arg6)

/-- The laid-out weights are the three transposed weight matrices side by side. -/
private theorem V_main_v3_eq (c : Dev nD) :
    (V m c main_v3 : S256x768.Idx → EReal) =
      concatenate S256x768 1
        [⟨S256x256, transpose S256x256 [1, 0] (wArg m c 0) transposes_S256x256_S256x256_1_0⟩,
         ⟨S256x256, transpose S256x256 [1, 0] (wArg m c 1) transposes_S256x256_S256x256_1_0⟩,
         ⟨S256x256, transpose S256x256 [1, 0] (wArg m c 2) transposes_S256x256_S256x256_1_0⟩]
        concatenates_S256x256_S256x256_S256x256_S256x768_d1 := by
  dsimp only [V, hostOps0]
  simp only [StableHlo.after_cons, StableHlo.after_nil]
  repeat (first | rw [StableHlo.nary3_result] | rw [StableHlo.unary_result] | rw [StableHlo.reshape_result] | (rw [StableHlo.unary_result_ne]; rotate_left; decide) | (rw [StableHlo.nary_result_ne]; rotate_left; decide) | (rw [StableHlo.reshape_result_ne]; rotate_left; decide))
  rfl

/-- Three square matrices side by side, read in column `256 · p + d`: the `p`-th matrix in column `d`. -/
private theorem concat3_cols_apply (x : Fin 3 → (S256x256.Idx → EReal))
    (h : Shape.Concatenates [S256x256, S256x256, S256x256] S256x768 1) (p : Fin 3) (k d : Fin 256) :
    concatenate S256x768 1 [⟨S256x256, x 0⟩, ⟨S256x256, x 1⟩, ⟨S256x256, x 2⟩] h
        (ix2 k ⟨256 * p.val + d.val, by have := p.isLt; have := d.isLt; omega⟩) = x p (ix2 k d) := by
  have hi : ∀ (e : Fin 768) (b : Fin S256x256.rank), b.cast (rfl : S256x256.rank = S256x768.rank) ≠ (1 : Fin S256x768.rank) →
      ((ix2 k d : S256x256.Idx) b).val = ((ix2 k e : S256x768.Idx) (b.cast rfl)).val := fun e b =>
    match b with
    | ⟨0, _⟩ => fun _ => rfl
    | ⟨1, _⟩ => fun hb => absurd rfl hb
  fin_cases p
  · exact concatenate_apply_piece (t := S256x768) 1 [⟨S256x256, x 0⟩, ⟨S256x256, x 1⟩, ⟨S256x256, x 2⟩] h _ 0 (by show (0 : ℕ) < 3; omega) S256x256 (x 0) rfl rfl 0 rfl (ix2 k d) (hi _)
      (by show 0 + d.val = 256 * 0 + d.val; omega)
  · exact concatenate_apply_piece (t := S256x768) 1 [⟨S256x256, x 0⟩, ⟨S256x256, x 1⟩, ⟨S256x256, x 2⟩] h _ 1 (by show (1 : ℕ) < 3; omega) S256x256 (x 1) rfl rfl 256 rfl (ix2 k d) (hi _)
      (by show 256 + d.val = 256 * 1 + d.val; omega)
  · exact concatenate_apply_piece (t := S256x768) 1 [⟨S256x256, x 0⟩, ⟨S256x256, x 1⟩, ⟨S256x256, x 2⟩] h _ 2 (by show (2 : ℕ) < 3; omega) S256x256 (x 2) rfl rfl 512 rfl (ix2 k d) (hi _)
      (by show 512 + d.val = 256 * 2 + d.val; omega)

/-- Column `256 · p + d` of the laid-out weights is row `d` of the `p`-th weight matrix. -/
theorem V_main_v3_apply (c : Dev nD) (p : Fin 3) (k d : Fin 256) :
    (V m c main_v3 : S256x768.Idx → EReal) (ix2 k ⟨256 * p.val + d.val, by have := p.isLt; have := d.isLt; omega⟩) = wArg m c p (ix2 d k) := by
  rw [V_main_v3_eq]
  rw [concat3_cols_apply (fun q => transpose S256x256 [1, 0] (wArg m c q) transposes_S256x256_S256x256_1_0)]
  exact transpose_ix2_apply (wArg m c p) _ k d

/-- The laid-out bias row is the three bias vectors end to end, viewed as one row. -/
private theorem V_main_v5_eq (c : Dev nD) :
    (V m c main_v5 : S1x768.Idx → EReal) =
      shapeCast S1x768
        (concatenate S768 0 [⟨S256, bArg m c 0⟩, ⟨S256, bArg m c 1⟩, ⟨S256, bArg m c 2⟩] concatenates_S256_S256_S256_S768_d0)
        shapeCasts_S768_S1x768 := by
  dsimp only [V, hostOps0]
  simp only [StableHlo.after_cons, StableHlo.after_nil]
  repeat (first | rw [StableHlo.nary3_result] | rw [StableHlo.unary_result] | rw [StableHlo.reshape_result] | (rw [StableHlo.unary_result_ne]; rotate_left; decide) | (rw [StableHlo.nary_result_ne]; rotate_left; decide) | (rw [StableHlo.reshape_result_ne]; rotate_left; decide))
  rfl

/-- Three vectors of 256 end to end, read at `256 · p + d`: the `p`-th vector at `d`. -/
private theorem concat3_vec_apply (x : Fin 3 → (S256.Idx → EReal))
    (h : Shape.Concatenates [S256, S256, S256] S768 0) (p : Fin 3) (d : Fin 256) :
    concatenate S768 0 [⟨S256, x 0⟩, ⟨S256, x 1⟩, ⟨S256, x 2⟩] h
        (ix1 ⟨256 * p.val + d.val, by have := p.isLt; have := d.isLt; omega⟩) = x p (ix1 d) := by
  have hi : ∀ (e : Fin 768) (b : Fin S256.rank), b.cast (rfl : S256.rank = S768.rank) ≠ (0 : Fin S768.rank) →
      ((ix1 d : S256.Idx) b).val = ((ix1 e : S768.Idx) (b.cast rfl)).val := fun e b =>
    match b with
    | ⟨0, _⟩ => fun hb => absurd rfl hb
  fin_cases p
  · exact concatenate_apply_piece (t := S768) 0 [⟨S256, x 0⟩, ⟨S256, x 1⟩, ⟨S256, x 2⟩] h _ 0 (by show (0 : ℕ) < 3; omega) S256 (x 0) rfl rfl 0 rfl (ix1 d) (hi _)
      (by show 0 + d.val = 256 * 0 + d.val; omega)
  · exact concatenate_apply_piece (t := S768) 0 [⟨S256, x 0⟩, ⟨S256, x 1⟩, ⟨S256, x 2⟩] h _ 1 (by show (1 : ℕ) < 3; omega) S256 (x 1) rfl rfl 256 rfl (ix1 d) (hi _)
      (by show 256 + d.val = 256 * 1 + d.val; omega)
  · exact concatenate_apply_piece (t := S768) 0 [⟨S256, x 0⟩, ⟨S256, x 1⟩, ⟨S256, x 2⟩] h _ 2 (by show (2 : ℕ) < 3; omega) S256 (x 2) rfl rfl 512 rfl (ix1 d) (hi _)
      (by show 512 + d.val = 256 * 2 + d.val; omega)

/-- Entry `256 · p + d` of the laid-out bias row is entry `d` of the `p`-th bias vector. -/
theorem V_main_v5_apply (c : Dev nD) (p : Fin 3) (d : Fin 256) :
    (V m c main_v5 : S1x768.Idx → EReal) (ix2 0 ⟨256 * p.val + d.val, by have := p.isLt; have := d.isLt; omega⟩) = bArg m c p (ix1 d) := by
  rw [V_main_v5_eq]
  rw [shapeCast_a_1a_apply (a := 768)]
  exact concat3_vec_apply (bArg m c) _ p d

end Cert.KernelIdeal.Region

end
-- ==== Proof.KernelValue.lean ====
/-
  The attention kernel's result array after the run.

  Grid point t works on batches 2 t and 2 t + 1: its trajectory block is those two batches of the trajectory, its
  weight and bias blocks are the whole laid-out operands, and its output block is those two batches of the result. So
  the block's queries, keys and values are the projections of batches 2 t + b with the query, key and value weights
  and biases, the block the point writes back is the block of the attention array `G` of the seven arguments, the
  sixteen blocks cover the result array, and the array ends holding `G`.
-/
import proofs.«403941_j26371099197827_3_alg».proof.Proof.OutBlock
import proofs.«403941_j26371099197827_3_alg».proof.Proof.Operands

set_option maxRecDepth 16384

noncomputable section

namespace Cert.KernelIdeal.Region

open Cert.KernelIdeal Cert.KernelIdeal.Gen Cert.Attn
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The printed index maps, decided over the grid: the trajectory's and the result's block index is the point on the
    batch axis and zero on the others; the laid-out operands' is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The three input blocks at point `t`, at their literal types. -/
abbrev xblk (c : Dev nD) (t : Fin cfg0.N) : Vec Ideal S2x1024x256 .f32 := iblk m c 0 t
abbrev wblk (c : Dev nD) (t : Fin cfg0.N) : Vec Ideal S256x768 .f32 := iblk m c 1 t
abbrev bblk (c : Dev nD) (t : Fin cfg0.N) : Vec Ideal S1x768 .f32 := iblk m c 2 t

theorem t_lt (t : Fin cfg0.N) : t.val < 16 := lt_of_lt_of_eq t.isLt (show cfg0.N = 16 from N_0)

/-- The trajectory block holds batches 2 t and 2 t + 1 of the trajectory as launched. -/
theorem xblk_apply (c : Dev nD) (t : Fin cfg0.N) (b : Fin 2) (n : Fin 1024) (k : Fin 256) :
    xblk m c t (ix3 b n k) = (m ((c.tc : Thread nD τ).loc main_arg0)) (ix3 (⟨2 * t.val + b.val, by have := t_lt t; have := b.isLt; omega⟩ : Fin 32) n k) := by
  obtain ⟨e0, e1, e2, -⟩ := idx_facts t
  show V m c main_arg0 (((cfg0.win 0).blk t).view.emb (ix3 b n k)) = _
  rw [V_main_arg0]
  refine congrArg _ (funext fun a => Fin.ext ?_)
  match a with
  | ⟨0, _⟩ => show win0_0.index t (0 : Fin 3) * 2 + 1 * b.val = 2 * t.val + b.val; omega
  | ⟨1, _⟩ => show win0_0.index t (1 : Fin 3) * 1024 + 1 * n.val = n.val; omega
  | ⟨2, _⟩ => show win0_0.index t (2 : Fin 3) * 256 + 1 * k.val = k.val; omega

/-- The weight block is the whole laid-out weight operand. -/
theorem wblk_apply (c : Dev nD) (t : Fin cfg0.N) (k : Fin 256) (j : Fin 768) :
    wblk m c t (ix2 k j) = (V m c main_v3 : S256x768.Idx → EReal) (ix2 k j) := by
  obtain ⟨-, -, -, e0, e1, -⟩ := idx_facts t
  show V m c main_v3 (((cfg0.win 1).blk t).view.emb (ix2 k j)) = _
  refine congrArg _ (funext fun a => Fin.ext ?_)
  match a with
  | ⟨0, _⟩ => show win0_1.index t (0 : Fin 2) * 256 + 1 * k.val = k.val; omega
  | ⟨1, _⟩ => show win0_1.index t (1 : Fin 2) * 768 + 1 * j.val = j.val; omega

/-- The bias block is the whole laid-out bias row. -/
theorem bblk_apply (c : Dev nD) (t : Fin cfg0.N) (j : Fin 768) :
    bblk m c t (ix2 (0 : Fin 1) j) = (V m c main_v5 : S1x768.Idx → EReal) (ix2 (0 : Fin 1) j) := by
  obtain ⟨-, -, -, -, -, e0, e1, -⟩ := idx_facts t
  show V m c main_v5 (((cfg0.win 2).blk t).view.emb (ix2 (0 : Fin 1) j)) = _
  refine congrArg _ (funext fun a => Fin.ext ?_)
  match a with
  | ⟨0, _⟩ => show win0_2.index t (0 : Fin 2) * 1 + 1 * 0 = 0; omega
  | ⟨1, _⟩ => show win0_2.index t (1 : Fin 2) * 768 + 1 * j.val = j.val; omega

/-- Columns [256 p, 256 p + 256) of the block's fused projection are the projection of batch 2 t + b with the p-th
    weight matrix and bias vector. -/
theorem col_eq_proj (c : Dev nD) (t : Fin cfg0.N) (p : Fin 3) (b : Fin 2) (n : Fin 1024) (d : Fin 256) :
    Proj.col (xblk m c t) (wblk m c t) (bblk m c t) (256 * p.val) (by have := p.isLt; omega) b n d
      = proj (m ((c.tc : Thread nD τ).loc main_arg0)) (wArg m c p) (bArg m c p) (⟨2 * t.val + b.val, by have := t_lt t; have := b.isLt; omega⟩ : Fin 32) n d := by
  unfold Proj.col proj
  have hW : ∀ k : Fin 256, wblk m c t (ix2 k ⟨256 * p.val + d.val, by have := p.isLt; have := d.isLt; omega⟩) = wArg m c p (ix2 d k) :=
    fun k => (wblk_apply m c t k _).trans (V_main_v3_apply m c p k d)
  have hB : bblk m c t (ix2 (0 : Fin 1) ⟨256 * p.val + d.val, by have := p.isLt; have := d.isLt; omega⟩) = bArg m c p (ix1 d) :=
    (bblk_apply m c t _).trans (V_main_v5_apply m c p d)
  simp only [xblk_apply, hW, hB]

/-- The block point `t` leaves in the output's staging buffer is, entry by entry, the attention array at batches
    2 t and 2 t + 1. -/
theorem block_apply (c : Dev nD) (t : Fin cfg0.N) (b : Fin 2) (n : Fin 1024) (e : Fin 256) :
    Gblk (k0_pay5 (F := Ideal) (xblk m c t) (wblk m c t) (bblk m c t)) (k0_pay3 (F := Ideal) (xblk m c t) (wblk m c t) (bblk m c t))
        (k0_pay4 (F := Ideal) (xblk m c t) (wblk m c t) (bblk m c t)) (ix3 b n e)
      = (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (ix3 (⟨2 * t.val + b.val, by have := t_lt t; have := b.isLt; omega⟩ : Fin 32) n e) := by
  have hQ : ∀ (n' : Fin 1024) (d : Fin 256), k0_pay5 (F := Ideal) (xblk m c t) (wblk m c t) (bblk m c t) (ix3 b n' d)
      = proj (m ((c.tc : Thread nD τ).loc main_arg0)) (m ((c.tc : Thread nD τ).loc main_arg1)) (m ((c.tc : Thread nD τ).loc main_arg2)) (⟨2 * t.val + b.val, by have := t_lt t; have := b.isLt; omega⟩ : Fin 32) n' d :=
    fun n' d => (Proj.pay5_apply _ _ _ b n' d).trans (col_eq_proj m c t 0 b n' d)
  have hK : ∀ (n' : Fin 1024) (d : Fin 256), k0_pay3 (F := Ideal) (xblk m c t) (wblk m c t) (bblk m c t) (ix3 b n' d)
      = proj (m ((c.tc : Thread nD τ).loc main_arg0)) (m ((c.tc : Thread nD τ).loc main_arg3)) (m ((c.tc : Thread nD τ).loc main_arg4)) (⟨2 * t.val + b.val, by have := t_lt t; have := b.isLt; omega⟩ : Fin 32) n' d :=
    fun n' d => (Proj.pay3_apply _ _ _ b n' d).trans (col_eq_proj m c t 1 b n' d)
  have hV : ∀ (n' : Fin 1024) (d : Fin 256), k0_pay4 (F := Ideal) (xblk m c t) (wblk m c t) (bblk m c t) (ix3 b n' d)
      = proj (m ((c.tc : Thread nD τ).loc main_arg0)) (m ((c.tc : Thread nD τ).loc main_arg5)) (m ((c.tc : Thread nD τ).loc main_arg6)) (⟨2 * t.val + b.val, by have := t_lt t; have := b.isLt; omega⟩ : Fin 32) n' d :=
    fun n' d => (Proj.pay4_apply _ _ _ b n' d).trans (col_eq_proj m c t 2 b n' d)
  show attnRow (fun j : Fin 1024 => ∑ d : Fin 256, k0_pay5 (F := Ideal) (xblk m c t) (wblk m c t) (bblk m c t) (ix3 b n d)
          * k0_pay3 (F := Ideal) (xblk m c t) (wblk m c t) (bblk m c t) (ix3 b j d))
        (fun j : Fin 1024 => k0_pay4 (F := Ideal) (xblk m c t) (wblk m c t) (bblk m c t) (ix3 b j e)) = _
  simp only [hQ, hK, hV]
  rfl

/-- What point `t` writes back is block `t` of the attention array. -/
theorem flushed3_eq (c : Dev nD) (t : Fin cfg0.N) :
    (dats m 0 c).flushed 3 t = ((cfg0.win 3).blk t).view.read (Elt Ideal) (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show (cfg0.win 3).cut (grid0.coords t) ((dats m 0 c).after 3 t) = _
  rw [after0_3]
  obtain ⟨-, -, -, -, -, -, -, e0, e1, e2⟩ := idx_facts t
  funext y
  have hy : (y : S2x1024x256.Idx) = ix3 (y 0 : Fin 2) (y 1 : Fin 1024) (y 2 : Fin 256) := eq_ix3 y
  have hi : ((cfg0.win 3).blk t).view.emb y = ix3 (⟨2 * t.val + (y 0).val, by have := t_lt t; have : (y 0).val < 2 := (y 0).isLt; omega⟩ : Fin 32) (y 1 : Fin 1024) (y 2 : Fin 256) := by
    funext a; apply Fin.ext
    match a with
    | ⟨0, _⟩ => show win0_3.index t (0 : Fin 3) * 2 + 1 * (y 0).val = 2 * t.val + (y 0).val; omega
    | ⟨1, _⟩ => show win0_3.index t (1 : Fin 3) * 1024 + 1 * (y 1).val = (y 1).val; omega
    | ⟨2, _⟩ => show win0_3.index t (2 : Fin 3) * 256 + 1 * (y 2).val = (y 2).val; omega
  show out0_3 (F := Ideal) c (grid0.coords t) (ms0_0 t) (hs0_0 t) (ms0_1 t) (hs0_1 t) (ms0_2 t) (hs0_2 t) (ms0_3 t) (hs0_3 t) scM0_0 (Memref.isWhole_whole _) (xblk m c t) (wblk m c t) (bblk m c t) y
    = (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) (((cfg0.win 3).blk t).view.emb y)
  rw [out0_3_apply, hi, hy]
  exact block_apply m c t _ _ _

/-- An index of the result array is in point `t`'s block iff each coordinate is in the block's range on its axis. -/
theorem mem_blk3 (t : Fin cfg0.N) (i : S32x1024x256.Idx) :
    i ∈ ((cfg0.win 3).blk t).view.set ↔ ∀ a : Fin 3, win0_3.index t a * S2x1024x256.size a ≤ (i a).val ∧ (i a).val < win0_3.index t a * S2x1024x256.size a + S2x1024x256.size a := by
  show i ∈ ((View.whole main_v6).slice (win0_3.rect t)).set ↔ _
  rw [View.set_slice_whole, Rect.mem_set_unit]
  exact Iff.rfl

/-- Every index of the result array is in the block of the point that handles its batch pair. -/
theorem cover3 (i : S32x1024x256.Idx) :
    ∃ t : Fin cfg0.N, (cfg0.win 3).flush t = true ∧ i ∈ ((cfg0.win 3).blk t).view.set := by
  have hi0 : (i 0).val < 32 := (i 0).isLt
  have hi1 : (i 1).val < 1024 := (i 1).isLt
  have hi2 : (i 2).val < 256 := (i 2).isLt
  have hN : cfg0.N = 16 := N_0
  refine ⟨⟨(i 0).val / 2, by rw [hN]; omega⟩, flush0_3 _, ?_⟩
  rw [mem_blk3]
  obtain ⟨-, -, -, -, -, -, -, e0, e1, e2⟩ := idx_facts ⟨(i 0).val / 2, by rw [hN]; omega⟩
  intro a
  match a with
  | ⟨0, _⟩ =>
    show win0_3.index _ (0 : Fin 3) * 2 ≤ (i 0).val ∧ (i 0).val < win0_3.index _ (0 : Fin 3) * 2 + 2
    rw [e0]; dsimp only; omega
  | ⟨1, _⟩ =>
    show win0_3.index _ (1 : Fin 3) * 1024 ≤ (i 1).val ∧ (i 1).val < win0_3.index _ (1 : Fin 3) * 1024 + 1024
    rw [e1]; omega
  | ⟨2, _⟩ =>
    show win0_3.index _ (2 : Fin 3) * 256 ≤ (i 2).val ∧ (i 2).val < win0_3.index _ (2 : Fin 3) * 256 + 256
    rw [e2]; omega

/-- The result array after the run is the attention array of the seven arguments. -/
theorem final3 (c : Dev nD) : (dats m 0 c).arrAt 3 cfg0.N = (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  (dats m 0 c).arrAt_eq_of_cover 3 _ (fun t _ => flushed3_eq m c t) cover3

/-- The run, with the result named: every weakly fair execution terminates with the result array at the attention
    array of the arguments and the arguments unchanged. -/
theorem run : θ_run defs (onTc (τ := τ) (main (F := Ideal))) ⟨m, fun _ => 0, ρ⟩ (fun r => ∀ c : Dev nD,
      r.2.mem ((c.tc : Thread nD τ).loc main_v6) = (G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 3).trans (final3 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩)
    (run_main m ρ)

end Cert.KernelIdeal.Region

end
-- ==== Proof.RefValue.lean ====
/-
  What the reference computes, entry by entry: projections, scores, the row's largest score taken from minus infinity,
  the exponential weights, each weight divided by the weights' sum, and the weighted sum of the values.
-/
import proofs.«403941_j26371099197827_3_alg».proof.Proof.Gen.ReferenceIdeal.Read
import proofs.«403941_j26371099197827_3_alg».proof.Proof.AttnSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Attn
open Idealize.ShloMosaic Idealize.ShloMosaic.ValueIdx

/-! ## The three projections

Each projection is a contraction of the trajectory's last axis against a weight matrix's second axis, plus a bias
broadcast along the first two axes. -/

/-- Entry `(b, n, e)` of a projection stage is `proj` there. -/
private theorem proj_read (X : (⟨S32x1024x256, .f32⟩ : BufTy).Contents (Elt Ideal)) (W : (⟨S256x256, .f32⟩ : BufTy).Contents (Elt Ideal))
    (β : (⟨S256, .f32⟩ : BufTy).Contents (Elt Ideal)) (b : Fin 32) (n : Fin 1024) (e : Fin 256) :
    val_main_v3 (F := Ideal) X W β (ix3 b n e) = proj X W β b n e := by
  rw [val_main_v3_apply, val_main_v0_apply, val_main_v2_apply, val_main_v1_apply, Ideal.addf_def]
  have hβ : idx_main_v1 (idx_main_v2 (ix3 b n e)) = ix1 e :=
    funext fun a => Fin.ext (by match a with | ⟨0, _⟩ => rfl)
  rw [hβ]
  refine congrArg (· + β (ix1 e)) (Finset.sum_congr rfl fun k _ => ?_)
  have hl : lidx_main_v0 (ix3 b n e) k = ix3 b n k :=
    funext fun a => Fin.ext (by match a with | ⟨0, _⟩ => rfl | ⟨1, _⟩ => rfl | ⟨2, _⟩ => rfl)
  have hr : ridx_main_v0 (ix3 b n e) k = ix2 e k :=
    funext fun a => Fin.ext (by match a with | ⟨0, _⟩ => rfl | ⟨1, _⟩ => rfl)
  rw [hl, hr]

/-- The key and value projections are the same stage as the query projection, at their own weights and bias. -/
private theorem v7_eq (X : (⟨S32x1024x256, .f32⟩ : BufTy).Contents (Elt Ideal)) (W : (⟨S256x256, .f32⟩ : BufTy).Contents (Elt Ideal))
    (β : (⟨S256, .f32⟩ : BufTy).Contents (Elt Ideal)) : val_main_v7 (F := Ideal) X W β = val_main_v3 (F := Ideal) X W β := rfl
private theorem v11_eq (X : (⟨S32x1024x256, .f32⟩ : BufTy).Contents (Elt Ideal)) (W : (⟨S256x256, .f32⟩ : BufTy).Contents (Elt Ideal))
    (β : (⟨S256, .f32⟩ : BufTy).Contents (Elt Ideal)) : val_main_v11 (F := Ideal) X W β = val_main_v3 (F := Ideal) X W β := rfl

/-! ## Scores, the row maximum, the weights and their sum -/

section Row
variable (x0 : (⟨S32x1024x256, .f32⟩ : BufTy).Contents (Elt Ideal)) (x1 : (⟨S256x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal))

/-- Entry `(b, n, j)` of the score stage is the inner product of query row `n` and key row `j` of batch `b`. -/
private theorem score_read (b : Fin 32) (n j : Fin 1024) :
    val_main_v12 (F := Ideal) x0 x1 x2 x3 x4 (ix3 b n j) = score (proj x0 x1 x2) (proj x0 x3 x4) b n j := by
  rw [val_main_v12_apply]
  unfold score
  refine Finset.sum_congr rfl fun k _ => ?_
  have hl : lidx_main_v12 (ix3 b n j) k = ix3 b n k :=
    funext fun a => Fin.ext (by match a with | ⟨0, _⟩ => rfl | ⟨1, _⟩ => rfl | ⟨2, _⟩ => rfl)
  have hr : ridx_main_v12 (ix3 b n j) k = ix3 b j k :=
    funext fun a => Fin.ext (by match a with | ⟨0, _⟩ => rfl | ⟨1, _⟩ => rfl | ⟨2, _⟩ => rfl)
  rw [hl, hr, v7_eq, proj_read, proj_read]

/-- The score array's last axis is the one the row reductions run over. -/
private theorem reduces_d2 : S32x1024x1024.Reduces [2] S32x1024 := by decide

/-- Row `(b, n)` with coordinate `k` put back on the reduced axis is entry `(b, n, k)`. -/
private theorem lift_d2 (b : Fin 32) (n k : Fin 1024) : reduces_d2.lift (ix2 b n) k = ix3 b n k :=
  funext fun a => Fin.ext (by match a with | ⟨0, _⟩ => rfl | ⟨1, _⟩ => rfl | ⟨2, _⟩ => rfl)

/-- Entry `(b, n)` of the maximum stage — the larger of minus infinity and the fold of `max` from minus infinity along
    the row — is the row's largest score. -/
private theorem max_read (b : Fin 32) (n : Fin 1024) :
    val_main_v15 (F := Ideal) x0 x1 x2 x3 x4 (ix2 b n)
      = rowMax (fun j : Fin 1024 => score (proj x0 x1 x2) (proj x0 x3 x4) b n j) := by
  rw [val_main_v15_apply, val_main_v14_apply, val_main_cst_0_apply, Ideal.maximumf_def, Ideal.ofBits_def, negInf_eq, max_bot_left]
  unfold val_main_v13
  rw [Host.reduce_eq_fold_single FloatOps.maximumf _ _ reducesTo_S32x1024x1024_S32x1024_d2 reduces_d2 h_S_,
    val_main_cst_apply, Ideal.ofBits_def, negInf_eq]
  unfold rowMax
  refine Finset.fold_congr fun k _ => ?_
  exact (congrArg (val_main_v12 (F := Ideal) x0 x1 x2 x3 x4) (lift_d2 b n k)).trans (score_read x0 x1 x2 x3 x4 b n k)

/-- Entry `(b, n, j)` of the exponential stage is the weight of key row `j`. -/
private theorem wt_read (b : Fin 32) (n j : Fin 1024) :
    val_main_v19 (F := Ideal) x0 x1 x2 x3 x4 (ix3 b n j)
      = wt (fun j : Fin 1024 => score (proj x0 x1 x2) (proj x0 x3 x4) b n j) j := by
  have hi : idx_main_v16 (idx_main_v17 (ix3 b n j)) = ix2 b n :=
    funext fun a => Fin.ext (by match a with | ⟨0, _⟩ => rfl | ⟨1, _⟩ => rfl)
  rw [val_main_v19_apply, val_main_v18_apply, val_main_v17_apply, val_main_v16_apply, hi, max_read, score_read,
    Ideal.hostUnary_exp_def, Ideal.subf_def]
  rfl

/-- Entry `(b, n)` of the sum stage is the sum of the row's weights. -/
private theorem sum_read (b : Fin 32) (n : Fin 1024) :
    val_main_v20 (F := Ideal) x0 x1 x2 x3 x4 (ix2 b n)
      = ∑ j : Fin 1024, wt (fun j : Fin 1024 => score (proj x0 x1 x2) (proj x0 x3 x4) b n j) j := by
  rw [val_main_v20_apply, val_main_cst_1_apply, Ideal.ofBits_def, Ideal.ofBits_zero_f32, zero_add]
  refine Finset.sum_congr rfl fun k _ => ?_
  have hi : idx_main_v20 (ix2 b n) k = ix3 b n k :=
    funext fun a => Fin.ext (by match a with | ⟨0, _⟩ => rfl | ⟨1, _⟩ => rfl | ⟨2, _⟩ => rfl)
  rw [hi, wt_read]

/-- Entry `(b, n, j)` of the division stage is the weight of `j` over the sum of the row's weights. -/
private theorem div_read (b : Fin 32) (n j : Fin 1024) :
    val_main_v23 (F := Ideal) x0 x1 x2 x3 x4 (ix3 b n j)
      = Ideal.div (wt (fun j : Fin 1024 => score (proj x0 x1 x2) (proj x0 x3 x4) b n j) j)
          (∑ j' : Fin 1024, wt (fun j : Fin 1024 => score (proj x0 x1 x2) (proj x0 x3 x4) b n j) j') := by
  have hi : idx_main_v21 (idx_main_v22 (ix3 b n j)) = ix2 b n :=
    funext fun a => Fin.ext (by match a with | ⟨0, _⟩ => rfl | ⟨1, _⟩ => rfl)
  rw [val_main_v23_apply, val_main_v22_apply, val_main_v21_apply, hi, sum_read, wt_read, Ideal.hostDivf_def]

end Row

/-! ## The result -/

/-- Entry `(b, n, e)` of the result stage: every weight divided by the weights' sum, times the value's entry, summed
    over the key rows. -/
private theorem result_at (x0 : (⟨S32x1024x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (b : Fin 32) (n : Fin 1024) (e : Fin 256) :
    val_main_v24 (F := Ideal) x0 x1 x2 x3 x4 x5 x6 (ix3 b n e)
      = attnRowPre (fun j : Fin 1024 => score (proj x0 x1 x2) (proj x0 x3 x4) b n j) (fun j : Fin 1024 => proj x0 x5 x6 b j e) := by
  rw [val_main_v24_apply]
  unfold attnRowPre
  refine Finset.sum_congr rfl fun k _ => ?_
  have hl : lidx_main_v24 (ix3 b n e) k = ix3 b n k :=
    funext fun a => Fin.ext (by match a with | ⟨0, _⟩ => rfl | ⟨1, _⟩ => rfl | ⟨2, _⟩ => rfl)
  have hr : ridx_main_v24 (ix3 b n e) k = ix3 b k e :=
    funext fun a => Fin.ext (by match a with | ⟨0, _⟩ => rfl | ⟨1, _⟩ => rfl | ⟨2, _⟩ => rfl)
  rw [hl, hr, div_read, v11_eq, proj_read]

/-- The reference's result array is the weights-normalised-first arrangement of attention. -/
theorem result_eq (x0 : (⟨S32x1024x256, .f32⟩ : BufTy).Contents (Elt Ideal)) (x1 : (⟨S256x256, .f32⟩ : BufTy).Contents (Elt Ideal)) (x2 : (⟨S256, .f32⟩ : BufTy).Contents (Elt Ideal))
    (x3 : (⟨S256x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v24 (F := Ideal) x0 x1 x2 x3 x4 x5 x6 = Gpre x0 x1 x2 x3 x4 x5 x6 := by
  funext i
  exact (congrArg (val_main_v24 (F := Ideal) x0 x1 x2 x3 x4 x5 x6) (eq_ix3 i)).trans
    (result_at x0 x1 x2 x3 x4 x5 x6 (i 0) (i 1) (i 2))

end Cert.ReferenceIdeal.RefValue

end
-- ==== Proof.FiniteInputs.lean ====
/-
  The precondition read back: when every entry of every argument array is smaller in absolute value than plus infinity,
  every entry is a real number.

  The printed predicate is, for each of the seven arrays, the conjunction over all entries `x` of the comparison
  `|x| < +∞`, and the seven conjunctions joined by `and`. In the extended reals `|x| = max x (-x)` and `+∞ = ⊤`; the
  maximum is `⊤` both at `x = ⊤` and at `x = ⊥` (where `-x = ⊤`), so the strict comparison holds only at a real `x`.
-/
import proofs.«403941_j26371099197827_3_alg».proof.Pre_finite_inputs
import proofs.«403941_j26371099197827_3_alg».proof.Proof.Gen.Pre_finite_inputs
import proofs.«403941_j26371099197827_3_alg».proof.Proof.AttnSpec
import Idealize.ShloMosaic.Lib.ReduceAll
import Idealize.ShloMosaic.Lib.ValueIdx
import Idealize.ShloMosaic.PureOps.Ideal.Laws

noncomputable section

namespace Cert.Pre_finite_inputs.Real

open Cert.Pre_finite_inputs Cert.Attn
open Idealize.ShloMosaic Idealize.ShloMosaic.ValueIdx

/-- The word 0x7F800000 denotes plus infinity, the top of the extended reals. -/
private theorem posInf_eq : Ideal.ofBits .f32 0x7F800000#32 = (⊤ : EReal) := by
  simp [Ideal.ofBits, Ideal.ieee]

/-- One entry: if `max x (-x) < ⊤` then `x` is neither infinity. At `x = ⊤` the maximum is `⊤`; at `x = ⊥` it is
    `-⊥ = ⊤`; in both cases the strict comparison fails. -/
private theorem isReal_of_abs_lt (x : Ideal .f32)
    (h : FloatOps.cmpf (F := Ideal) .olt (FloatOps.hostAbsf x) (FloatOps.ofBits .f32 0x7F800000#32) = 1#1) : IsReal x := by
  rw [Ideal.hostAbsf_def, Ideal.cmpf_def, Ideal.absf_def, Ideal.ofBits_def, posInf_eq] at h
  have hlt : max x (-x) < (⊤ : EReal) := by
    by_contra hn
    simp [Ideal.cmp, hn] at h
  constructor
  · rintro rfl
    simp at hlt
  · rintro rfl
    simp at hlt

/-- The shape of rank zero has exactly one index. -/
private instance : Subsingleton S_.Idx := ⟨fun a b => funext fun d => d.elim0⟩

/-- One array: if the conjunction over all entries `x i` of `|x i| < +∞` is the bit 1, every entry of `x` is real.
    A conjunction over all entries that is 1 has a 1 at each entry; the entry's bit is the comparison of `|x i|` with
    the one value of the broadcast constant. -/
private theorem isReal_of_all {s : Shape} {axes : List (Fin s.rank)} (x : FVec Ideal s .f32)
    (hb : S_.BroadcastsInDim s (![] : Fin 0 → Fin s.rank)) (hr : s.ReducesTo axes S_) (hu : 0 < S_.numel) (init : IVec S_ 1) (j : S_.Idx)
    (e : Host.reduce IntOp.andi (cmpf .olt (Host.absf x) (broadcastInDim s ![] hb (constant S_ .f32 0x7F800000#32))) init hr hu j = 1#1)
    (i : s.Idx) : IsReal (x i) :=
  isReal_of_abs_lt (x i) (Host.reduce_andi_all _ init hr hu j e i)

/-- The conjunction of two arrays of bits, read at an index, is 1 exactly when both bits there are 1. -/
private theorem andi_apply_eq_one {s : Shape} (p q : IVec s 1) (j : s.Idx) : andi p q j = 1#1 ↔ p j = 1#1 ∧ q j = 1#1 :=
  IntOp.andi_eq_one

/-- Every entry of the seven arrays is a real number once the printed predicate is all ones. -/
theorem real_of_pre (a0 : FVec Ideal S32x1024x256 .f32) (a1 : FVec Ideal S256x256 .f32) (a2 : FVec Ideal S256 .f32)
    (a3 : FVec Ideal S256x256 .f32) (a4 : FVec Ideal S256 .f32) (a5 : FVec Ideal S256x256 .f32) (a6 : FVec Ideal S256 .f32)
    (h : Cert.Pre_finite_inputs.fn (F := Ideal) a0 a1 a2 a3 a4 a5 a6 = fun _ => 1#1) :
    (∀ i, IsReal (a0 i)) ∧ (∀ i, IsReal (a1 i)) ∧ (∀ i, IsReal (a2 i)) ∧ (∀ i, IsReal (a3 i)) ∧ (∀ i, IsReal (a4 i))
      ∧ (∀ i, IsReal (a5 i)) ∧ (∀ i, IsReal (a6 i)) := by
  -- the predicate at its one index: six nested conjunctions of the seven per-array conjunctions
  have h0 := congrFun h ValueIdx.ix0
  dsimp only [fn, fn_part1] at h0
  -- peel the conjunctions from the outside: the last array's bit comes off first
  obtain ⟨h0, e6⟩ := (andi_apply_eq_one _ _ _).1 h0
  obtain ⟨h0, e5⟩ := (andi_apply_eq_one _ _ _).1 h0
  obtain ⟨h0, e4⟩ := (andi_apply_eq_one _ _ _).1 h0
  obtain ⟨h0, e3⟩ := (andi_apply_eq_one _ _ _).1 h0
  obtain ⟨h0, e2⟩ := (andi_apply_eq_one _ _ _).1 h0
  obtain ⟨e0, e1⟩ := (andi_apply_eq_one _ _ _).1 h0
  exact ⟨isReal_of_all a0 _ _ _ _ _ e0, isReal_of_all a1 _ _ _ _ _ e1, isReal_of_all a2 _ _ _ _ _ e2,
    isReal_of_all a3 _ _ _ _ _ e3, isReal_of_all a4 _ _ _ _ _ e4, isReal_of_all a5 _ _ _ _ _ e5,
    isReal_of_all a6 _ _ _ _ _ e6⟩

end Cert.Pre_finite_inputs.Real

end
-- ==== Proof.lean ====
/-
  Attention over a trajectory: the tiled kernel and the plain reference compute the same array.

  Both programs project the trajectory X (32 batches of 1024 rows of 256) to queries, keys and values with three
  256 x 256 weight matrices and biases, score every query row against the 1024 key rows of its batch, weight the key
  rows by the exponential of their score's distance below the row's largest score, and return the weighted sum of the
  value rows normalised by the sum of the weights. The kernel lays the three weight matrices side by side and projects
  once, handles two batches per grid point and 256 query rows at a time, and divides the weighted sum by the weights' sum
  at the end; the reference divides every weight by the sum first. At the ideal values a change of float format is the
  identity and a sum does not depend on how it is tiled, so the kernel's result is the array `Cert.Attn.G` of the seven
  arguments and the reference's is `Cert.Attn.Gpre`; under the precondition every entry of every argument is a real
  number, the weights are positive reals, and division by their sum distributes over the finite sum: the two arrays
  are one. Each program runs to the end, faults nowhere and leaves its arguments as launched; no operation of the
  kernel was rewritten when it was idealized.
-/
import proofs.«403941_j26371099197827_3_alg».proof.Defs
import proofs.«403941_j26371099197827_3_alg».proof.Proof.Gen.Kernel
import proofs.«403941_j26371099197827_3_alg».proof.Proof.Gen.KernelIdeal
import proofs.«403941_j26371099197827_3_alg».proof.Proof.Gen.ReferenceIdeal
import proofs.«403941_j26371099197827_3_alg».proof.Proof.Gen.Pre_finite_inputs
import proofs.«403941_j26371099197827_3_alg».proof.Proof.Gen.ReferenceIdeal.Run
import proofs.«403941_j26371099197827_3_alg».proof.Proof.Gen.ReferenceIdeal.Read
import proofs.«403941_j26371099197827_3_alg».proof.Proof.KernelRun
import proofs.«403941_j26371099197827_3_alg».proof.Proof.KernelValue
import proofs.«403941_j26371099197827_3_alg».proof.Proof.RefValue
import proofs.«403941_j26371099197827_3_alg».proof.Proof.FiniteInputs
import Idealize.ShloMosaic.Adequacy
import Idealize.ShloMosaic.Init

noncomputable section

namespace Cert.Proof

open Idealize.ShloMosaic Idealize.SL.Sem

/-- The kernel as printed runs to the end and leaves its arguments as launched. -/
theorem frame_kernel : Cert.frame_Kernel := fun m ρ _ => Cert.Kernel.Region.frame m ρ

/-- So does the kernel read at the ideal values. -/
theorem frame_kernelIdeal : Cert.frame_KernelIdeal := fun m ρ _ => Cert.KernelIdeal.Region.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array is the attention array normalised at the
    end, the reference's is the one normalised weight by weight, and on real arguments the two are one array. -/
theorem algebraic : Cert.algebraic_KernelIdeal_ReferenceIdeal := by
  intro m ρ m' ρ' hpre hagree
  refine ⟨_, Cert.KernelIdeal.Region.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := Cert.Pre_finite_inputs.Real.real_of_pre _ _ _ _ _ _ _ (hpre c)
  rw [Cert.ReferenceIdeal.Read.val_main_v24_eq, Cert.ReferenceIdeal.RefValue.result_eq,
    (hagree c).1, (hagree c).2.1, (hagree c).2.2.1, (hagree c).2.2.2.1, (hagree c).2.2.2.2.1,
    (hagree c).2.2.2.2.2.1, (hagree c).2.2.2.2.2.2]
  exact Cert.Attn.Gpre_eq_G h0 h1 h2 h3 h4 h5 h6

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
